-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048 : Shape := ⟨2, ![2, 2048]⟩
abbrev S2x2048x32000 : Shape := ⟨3, ![2, 2048, 32000]⟩
abbrev S_ : Shape := ⟨0, ![]⟩

class Facts : Prop where
  bcast_S_S2x2048x32000 : S_.BroadcastsInDim S2x2048x32000 (![] : Fin 0 → Fin S2x2048x32000.rank)
  reducesTo_S2x2048x32000_S_d0_1_2 : S2x2048x32000.ReducesTo [0, 1, 2] S_
  h_S_ : 0 < S_.numel

variable [Facts]

def fn {F : FTy → Type} [FloatOps F] (main_arg0 : IVec S2x2048 32) (main_arg1 : FVec F S2x2048x32000 .f32) (main_arg2 : FVec F S2x2048x32000 .f32) : IVec S_ 1 :=
  let main_v0 : FVec F S2x2048x32000 .f32 := Host.absf main_arg1
  let main_cst : FVec F S_ .f32 := constant S_ .f32 0x7F800000#32
  let main_v1 : FVec F S2x2048x32000 .f32 := broadcastInDim S2x2048x32000 ![] bcast_S_S2x2048x32000 main_cst
  let main_v2 : IVec S2x2048x32000 1 := cmpf .olt main_v0 main_v1
  let main_c : IVec S_ 1 := constantI S_ 1 1#1
  let main_v3 : IVec S_ 1 := (fun x v => Host.reduce IntOp.andi x v reducesTo_S2x2048x32000_S_d0_1_2 h_S_) main_v2 main_c
  let main_v4 : FVec F S2x2048x32000 .f32 := Host.absf main_arg2
  let main_cst_0 : FVec F S_ .f32 := constant S_ .f32 0x7F800000#32
  let main_v5 : FVec F S2x2048x32000 .f32 := broadcastInDim S2x2048x32000 ![] bcast_S_S2x2048x32000 main_cst_0
  let main_v6 : IVec S2x2048x32000 1 := cmpf .olt main_v4 main_v5
  let main_c_1 : IVec S_ 1 := constantI S_ 1 1#1
  let main_v7 : IVec S_ 1 := (fun x v => Host.reduce IntOp.andi x v reducesTo_S2x2048x32000_S_d0_1_2 h_S_) main_v6 main_c_1
  let main_v8 : IVec S_ 1 := andi main_v3 main_v7
  main_v8
-- ==== Kernel.lean ====
abbrev S2x2048 : Shape := ⟨2, ![2, 2048]⟩
abbrev S2x2048x32000 : Shape := ⟨3, ![2, 2048, 32000]⟩
abbrev S2x2047 : Shape := ⟨2, ![2, 2047]⟩
abbrev S_ : Shape := ⟨0, ![]⟩
abbrev S2x1 : Shape := ⟨2, ![2, 1]⟩
abbrev S2x2048x1 : Shape := ⟨3, ![2, 2048, 1]⟩
abbrev S2x1x1 : Shape := ⟨3, ![2, 1, 1]⟩
abbrev S1x16x32000 : Shape := ⟨3, ![1, 16, 32000]⟩
abbrev S1x16x1 : Shape := ⟨3, ![1, 16, 1]⟩
abbrev S1x1x1 : Shape := ⟨3, ![1, 1, 1]⟩
abbrev S16x32000 : Shape := ⟨2, ![16, 32000]⟩
abbrev S16x1 : Shape := ⟨2, ![16, 1]⟩
abbrev S16 : Shape := ⟨1, ![16]⟩
abbrev S1 : Shape := ⟨1, ![1]⟩
abbrev S1x1 : Shape := ⟨2, ![1, 1]⟩

abbrev nBuf : Space → Nat
  | .hbm => 18
  | .vmem => 8
  | .smem => 0
  | _ => 0

abbrev bufTy : (tb : Table) → Fin (tcTables nBuf tb) → BufTy
  | .hbm, ⟨0, _⟩ => ⟨S2x2048, .i32⟩
  | .hbm, ⟨1, _⟩ => ⟨S2x2048x32000, .f32⟩
  | .hbm, ⟨2, _⟩ => ⟨S2x2048x32000, .f32⟩
  | .hbm, ⟨3, _⟩ => ⟨S2x2047, .i32⟩
  | .hbm, ⟨4, _⟩ => ⟨S_, .i32⟩
  | .hbm, ⟨5, _⟩ => ⟨S2x2047, .i32⟩
  | .hbm, ⟨6, _⟩ => ⟨S2x2047, .i1⟩
  | .hbm, ⟨7, _⟩ => ⟨S2x2047, .f32⟩
  | .hbm, ⟨8, _⟩ => ⟨S_, .f32⟩
  | .hbm, ⟨9, _⟩ => ⟨S2x1, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S_, .f32⟩
  | .hbm, ⟨14, _⟩ => ⟨S2x1x1, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1x16x32000, .f32⟩
  | .local _ .vmem, ⟨1, _⟩ => ⟨S1x16x32000, .f32⟩
  | .local _ .vmem, ⟨2, _⟩ => ⟨S1x16x32000, .f32⟩
  | .local _ .vmem, ⟨3, _⟩ => ⟨S1x16x32000, .f32⟩
  | .local _ .vmem, ⟨4, _⟩ => ⟨S1x16x1, .f32⟩
  | .local _ .vmem, ⟨5, _⟩ => ⟨S1x16x1, .f32⟩
  | .local _ .vmem, ⟨6, _⟩ => ⟨S1x1x1, .f32⟩
  | .local _ .vmem, ⟨7, _⟩ => ⟨S1x1x1, .f32⟩
  | _, _ => ⟨S2x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 128], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x32000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S2x2048_S2x2047_0_1 : S2x2048.Slices ![0, 1] S2x2047
  bcast_S_S2x2047 : S_.BroadcastsInDim S2x2047 (![] : Fin 0 → Fin S2x2047.rank)
  bcast_S_S2x1 : S_.BroadcastsInDim S2x1 (![] : Fin 0 → Fin S2x1.rank)
  concatenates_S2x2047_S2x1_S2x2048_d1 : Shape.Concatenates [S2x2047, S2x1] S2x2048 1
  shapeCasts_S2x2048_S2x2048x1 : S2x2048.ShapeCasts S2x2048x1
  reducesTo_S2x2047_S_d0_1 : S2x2047.ReducesTo [0, 1] S_
  h_S_ : 0 < S_.numel
  inb_S1x1x1_S1x1x1_0_0_0 : ∀ a, (![0, 0, 0] : Fin 3 → Nat) a + S1x1x1.size a ≤ S1x1x1.size a
  h_S1x1x1 : 0 < S1x1x1.numel
  inb_S1x16x32000_S1x16x32000_0_0_0 : ∀ a, (![0, 0, 0] : Fin 3 → Nat) a + S1x16x32000.size a ≤ S1x16x32000.size a
  h_S1x16x32000 : 0 < S1x16x32000.numel
  shapeCasts_S1x16x32000_S16x32000 : S1x16x32000.ShapeCasts S16x32000
  inb_S1x16x1_S1x16x1_0_0_0 : ∀ a, (![0, 0, 0] : Fin 3 → Nat) a + S1x16x1.size a ≤ S1x16x1.size a
  h_S1x16x1 : 0 < S1x16x1.numel
  shapeCasts_S1x16x1_S16x1 : S1x16x1.ShapeCasts S16x1
  reduces_S16x32000_S16 : S16x32000.Reduces [1] S16
  shapeCasts_S16_S16x1 : S16.ShapeCasts S16x1
  broadcasts_S16x1_S16x32000 : S16x1.Broadcasts S16x32000
  reduces_S16x1_S1 : S16x1.Reduces [0] S1
  shapeCasts_S1_S1x1 : S1.ShapeCasts S1x1
  shapeCasts_S1x1x1_S1x1x1 : S1x1x1.ShapeCasts S1x1x1
  shapeCasts_S1x1_S1x1x1 : S1x1.ShapeCasts S1x1x1
  reducesTo_S2x1x1_S_d0_1_2 : S2x1x1.ReducesTo [0, 1, 2] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x32000.size a ≤ S2x2048x32000.size a
  hwx0_0 : ∀ i : grid0.Coords, EltTy.bits .f32 = 32 ∨ (Rect.block (s := S2x2048x32000) S1x16x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x32000.size a ≤ S2x2048x32000.size a
  hwx0_1 : ∀ i : grid0.Coords, EltTy.bits .f32 = 32 ∨ (Rect.block (s := S2x2048x32000) S1x16x32000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x1.size a ≤ S2x2048x1.size a
  hwx0_2 : ∀ i : grid0.Coords, EltTy.bits .f32 = 32 ∨ (Rect.block (s := S2x2048x1) S1x16x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

abbrev win0_0 : Pipeline.Window sig grid0 :=
  Pipeline.Window.ofSpec (Memref.whole main_arg1) S1x16x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x16x32000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x16x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x2048 : Shape := ⟨2, ![2, 2048]⟩
abbrev S2x2048x32000 : Shape := ⟨3, ![2, 2048, 32000]⟩
abbrev S2x2047 : Shape := ⟨2, ![2, 2047]⟩
abbrev S_ : Shape := ⟨0, ![]⟩
abbrev S2x2047x32000 : Shape := ⟨3, ![2, 2047, 32000]⟩
abbrev S2x2047x1 : Shape := ⟨3, ![2, 2047, 1]⟩

abbrev nBuf : Space → Nat
  | .hbm => 59
  | .vmem => 0
  | .smem => 0
  | _ => 0

abbrev bufTy : (tb : Table) → Fin (tcTables nBuf tb) → BufTy
  | .hbm, ⟨0, _⟩ => ⟨S2x2048, .i32⟩
  | .hbm, ⟨1, _⟩ => ⟨S2x2048x32000, .f32⟩
  | .hbm, ⟨2, _⟩ => ⟨S2x2048x32000, .f32⟩
  | .hbm, ⟨3, _⟩ => ⟨S2x2047, .i32⟩
  | .hbm, ⟨4, _⟩ => ⟨S_, .i32⟩
  | .hbm, ⟨5, _⟩ => ⟨S2x2047, .i32⟩
  | .hbm, ⟨6, _⟩ => ⟨S2x2047, .i1⟩
  | .hbm, ⟨7, _⟩ => ⟨S2x2047, .f32⟩
  | .hbm, ⟨8, _⟩ => ⟨S2x2047x32000, .f32⟩
  | .hbm, ⟨9, _⟩ => ⟨S2x2047x32000, .f32⟩
  | .hbm, ⟨10, _⟩ => ⟨S2x2047x32000, .f32⟩
  | .hbm, ⟨11, _⟩ => ⟨S_, .f32⟩
  | .hbm, ⟨12, _⟩ => ⟨S2x2047x32000, .f32⟩
  | .hbm, ⟨13, _⟩ => ⟨S2x2047x32000, .i1⟩
  | .hbm, ⟨14, _⟩ => ⟨S_, .f32⟩
  | .hbm, ⟨15, _⟩ => ⟨S2x2047, .f32⟩
  | .hbm, ⟨16, _⟩ => ⟨S_, .f32⟩
  | .hbm, ⟨17, _⟩ => ⟨S2x2047, .f32⟩
  | .hbm, ⟨18, _⟩ => ⟨S2x2047, .f32⟩
  | .hbm, ⟨19, _⟩ => ⟨S2x2047x1, .f32⟩
  | .hbm, ⟨20, _⟩ => ⟨S2x2047x32000, .f32⟩
  | .hbm, ⟨21, _⟩ => ⟨S2x2047x32000, .f32⟩
  | .hbm, ⟨22, _⟩ => ⟨S2x2047x32000, .f32⟩
  | .hbm, ⟨23, _⟩ => ⟨S_, .f32⟩
  | .hbm, ⟨24, _⟩ => ⟨S2x2047, .f32⟩
  | .hbm, ⟨25, _⟩ => ⟨S2x2047x1, .f32⟩
  | .hbm, ⟨26, _⟩ => ⟨S2x2047x1, .f32⟩
  | .hbm, ⟨27, _⟩ => ⟨S2x2047x32000, .f32⟩
  | .hbm, ⟨28, _⟩ => ⟨S2x2047x32000, .f32⟩
  | .hbm, ⟨29, _⟩ => ⟨S_, .f32⟩
  | .hbm, ⟨30, _⟩ => ⟨S2x2047, .f32⟩
  | .hbm, ⟨31, _⟩ => ⟨S_, .f32⟩
  | .hbm, ⟨32, _⟩ => ⟨S2x2047, .f32⟩
  | .hbm, ⟨33, _⟩ => ⟨S2x2047, .f32⟩
  | .hbm, ⟨34, _⟩ => ⟨S2x2047x1, .f32⟩
  | .hbm, ⟨35, _⟩ => ⟨S2x2047x32000, .f32⟩
  | .hbm, ⟨36, _⟩ => ⟨S2x2047x32000, .f32⟩
  | .hbm, ⟨37, _⟩ => ⟨S2x2047x32000, .f32⟩
  | .hbm, ⟨38, _⟩ => ⟨S_, .f32⟩
  | .hbm, ⟨39, _⟩ => ⟨S2x2047, .f32⟩
  | .hbm, ⟨40, _⟩ => ⟨S2x2047x1, .f32⟩
  | .hbm, ⟨41, _⟩ => ⟨S2x2047x1, .f32⟩
  | .hbm, ⟨42, _⟩ => ⟨S2x2047x32000, .f32⟩
  | .hbm, ⟨43, _⟩ => ⟨S2x2047x32000, .f32⟩
  | .hbm, ⟨44, _⟩ => ⟨S2x2047x32000, .f32⟩
  | .hbm, ⟨45, _⟩ => ⟨S2x2047x32000, .f32⟩
  | .hbm, ⟨46, _⟩ => ⟨S2x2047x32000, .f32⟩
  | .hbm, ⟨47, _⟩ => ⟨S_, .f32⟩
  | .hbm, ⟨48, _⟩ => ⟨S_, .f32⟩
  | .hbm, ⟨49, _⟩ => ⟨S2x2047x32000, .f32⟩
  | .hbm, ⟨50, _⟩ => ⟨S2x2047x32000, .f32⟩
  | .hbm, ⟨51, _⟩ => ⟨S_, .f32⟩
  | .hbm, ⟨52, _⟩ => ⟨S2x2047, .f32⟩
  | .hbm, ⟨53, _⟩ => ⟨S2x2047, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S2x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_v6 : Ref sig .tc := ⟨.hbm, 13, rfl⟩
abbrev main_call1_cst : Ref sig .tc := ⟨.hbm, 14, rfl⟩
abbrev main_call1_v0 : Ref sig .tc := ⟨.hbm, 15, rfl⟩
abbrev main_call1_cst_0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_v6 : Ref sig .tc := ⟨.hbm, 22, rfl⟩
abbrev main_call1_cst_1 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_v7 : Ref sig .tc := ⟨.hbm, 28, rfl⟩
abbrev main_call2_cst : Ref sig .tc := ⟨.hbm, 29, rfl⟩
abbrev main_call2_v0 : Ref sig .tc := ⟨.hbm, 30, rfl⟩
abbrev main_call2_cst_0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_v6 : Ref sig .tc := ⟨.hbm, 37, rfl⟩
abbrev main_call2_cst_1 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_cst : Ref sig .tc := ⟨.hbm, 47, rfl⟩
abbrev main_call3_v0 : Ref sig .tc := ⟨.hbm, 48, rfl⟩
abbrev main_call3_v1 : Ref sig .tc := ⟨.hbm, 49, rfl⟩
abbrev main_v12 : Ref sig .tc := ⟨.hbm, 50, rfl⟩
abbrev main_cst_0 : Ref sig .tc := ⟨.hbm, 51, rfl⟩
abbrev main_v13 : Ref sig .tc := ⟨.hbm, 52, rfl⟩
abbrev main_v14 : Ref sig .tc := ⟨.hbm, 53, rfl⟩
abbrev main_cst_1 : Ref sig .tc := ⟨.hbm, 54, rfl⟩
abbrev main_v15 : Ref sig .tc := ⟨.hbm, 55, rfl⟩
abbrev main_cst_2 : Ref sig .tc := ⟨.hbm, 56, rfl⟩
abbrev main_v16 : Ref sig .tc := ⟨.hbm, 57, rfl⟩
abbrev main_v17 : Ref sig .tc := ⟨.hbm, 58, rfl⟩

abbrev nD : Nat := 1
abbrev τ : Topo := Topo.v7x

variable {F : FTy → Type} [FloatOps F]

class Facts₀ : Prop where
  slices_S2x2048_S2x2047_0_1 : S2x2048.Slices ![0, 1] S2x2047
  bcast_S_S2x2047 : S_.BroadcastsInDim S2x2047 (![] : Fin 0 → Fin S2x2047.rank)
  slices_S2x2048x32000_S2x2047x32000_0_0_0 : S2x2048x32000.Slices ![0, 0, 0] S2x2047x32000
  bcast_S_S2x2047x32000 : S_.BroadcastsInDim S2x2047x32000 (![] : Fin 0 → Fin S2x2047x32000.rank)
  reducesTo_S2x2047x32000_S2x2047_d2 : S2x2047x32000.ReducesTo [2] S2x2047
  h_S_ : 0 < S_.numel
  bcast_S2x2047_S2x2047x1_0_1 : S2x2047.BroadcastsInDim S2x2047x1 (![0, 1] : Fin 2 → Fin S2x2047x1.rank)
  bcast_S2x2047x1_S2x2047x32000_0_1_2 : S2x2047x1.BroadcastsInDim S2x2047x32000 (![0, 1, 2] : Fin 3 → Fin S2x2047x32000.rank)
  reducesTo_S2x2047_S_d0_1 : S2x2047.ReducesTo [0, 1] S_

variable [Facts₀]

class Facts : Prop extends Facts₀ where

variable [Facts]
-- ==== Proof.KernelCases.lean ====
/-
  What one run of the kernel body leaves in the accumulator's one-element block, by case.

  The body loads a 16-row block of student logits, the same rows of teacher logits and the 16 mask
  entries, forms the 16 per-row KL terms, multiplies each by its mask entry, sums the 16 products
  and adds that partial sum to the accumulator.  At the first point of a batch row (the second grid
  coordinate is 0) the accumulator is first reset to zero, so the run leaves  0 + partial;  at every
  other point it leaves  previous + partial.  Both are the same payload of the loaded blocks; they
  differ only in what the accumulator held when it was read.
-/
import proofs.«119242_j5231270166835_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F]

theorem hz3 : (![0, 0, 0] : Fin 3 → Nat) = fun _ => 0 := funext fun a => by fin_cases a <;> rfl

/-- A point that is not the first of its batch row: the accumulator's previous contents `xo` enter the payload. -/
theorem later_point (c : Dev nD) (i : grid0.Coords) (a2 : Memref sig .tc .vmem S1x16x32000 .f32) (h2 : a2.IsWhole)
    (a3 : Memref sig .tc .vmem S1x16x32000 .f32) (h3 : a3.IsWhole) (a4 : Memref sig .tc .vmem S1x16x1 .f32) (h4 : a4.IsWhole)
    (a5 : Memref sig .tc .vmem S1x1x1 .f32) (h5 : a5.IsWhole) (hc : ¬cond0_0 i)
    (x0 x1 : Vec F S1x16x32000 .f32) (x2 : Vec F S1x16x1 .f32) (xo : Vec F S1x1x1 .f32) :
    out0_B_3 c i a2 h2 a3 h3 a4 h4 a5 h5 hc x0 x1 x2 xo = k0_pay1 (k0_pay3 x2) (k0_pay4 x0 x1) xo := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero hz3]
  simp only [View.readAt_eq_ld, h2.read_unread, h3.read_unread, h4.read_unread, h5.read_unread,
    View.ld_unit_zero (S := S1x16x32000) hz3, View.ld_unit_zero (S := S1x16x1) hz3, View.ld_unit_zero (S := S1x1x1) hz3]

/-- The first point of a batch row: the accumulator is reset to the zero splat, read back, and the partial sum added. -/
theorem first_point (c : Dev nD) (i : grid0.Coords) (a2 : Memref sig .tc .vmem S1x16x32000 .f32) (h2 : a2.IsWhole)
    (a3 : Memref sig .tc .vmem S1x16x32000 .f32) (h3 : a3.IsWhole) (a4 : Memref sig .tc .vmem S1x16x1 .f32) (h4 : a4.IsWhole)
    (a5 : Memref sig .tc .vmem S1x1x1 .f32) (h5 : a5.IsWhole) (hc : cond0_0 i)
    (x0 x1 : Vec F S1x16x32000 .f32) (x2 : Vec F S1x16x1 .f32) :
    out0_A_3 c i a2 h2 a3 h3 a4 h4 a5 h5 hc x0 x1 x2 = k0_pay1 (k0_pay3 x2) (k0_pay4 x0 x1) (k0_pay2 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, h4.read_unread,
    View.ld_unit_zero (S := S1x16x32000) hz3, View.ld_unit_zero (S := S1x16x1) hz3]

end Cert.KernelIdeal.Cases

end
-- ==== Proof.LibStats.lean ====
/-
  Pure mathematics on the extended reals, used from both programs' sides.

  (1) "Is a real": an extended real that is neither infinity, and the operations of one layer
      that keep a value real: sum, difference, product, quotient by a nonzero real, maximum,
      the reciprocal square root of a positive real, and finite sums.
  (2) The batch statistics over a finite index type of N elements: for real entries the
      one-pass variance  max (Σx²/N − (Σx/N)², 0)  is the two-pass variance  Σ(x − mean)²/N,
      which is a nonnegative real; adding a positive real to it gives a positive real.
  (3) Re-indexing a sum over Fin (a·b) as a double sum over Fin a × Fin b, the pair (t, r)
      standing for the index b·t + r.
-/
import Idealize.ShloMosaic.PureOps.Ideal
import Idealize.ShloMosaic.PureOps.Ideal.Laws
import Mathlib.Data.EReal.Inv
import Mathlib.Data.Fintype.BigOperators
import Mathlib.Logic.Equiv.Fin.Basic

noncomputable section

namespace Cert.Hand.LibStats

open Idealize.ShloMosaic
open scoped BigOperators

/-! ## Real values among the extended reals -/

/-- An extended real that is a real number. -/
def IsReal (x : EReal) : Prop := ∃ r : ℝ, x = (r : EReal)

theorem isReal_coe (r : ℝ) : IsReal (r : EReal) := ⟨r, rfl⟩
theorem isReal_zero : IsReal 0 := ⟨0, EReal.coe_zero.symm⟩
theorem isReal_one : IsReal 1 := ⟨1, EReal.coe_one.symm⟩
theorem isReal_iff {x : EReal} : IsReal x ↔ x ≠ ⊥ ∧ x ≠ ⊤ := by
  constructor
  · rintro ⟨r, rfl⟩
    exact ⟨EReal.coe_ne_bot r, EReal.coe_ne_top r⟩
  · rintro ⟨hb, ht⟩
    induction x using EReal.rec with
    | bot => exact absurd rfl hb
    | top => exact absurd rfl ht
    | coe r => exact ⟨r, rfl⟩
theorem IsReal.ne_bot {x : EReal} (hx : IsReal x) : x ≠ ⊥ := (isReal_iff.mp hx).1
theorem IsReal.ne_top {x : EReal} (hx : IsReal x) : x ≠ ⊤ := (isReal_iff.mp hx).2

theorem IsReal.add {x y : EReal} (hx : IsReal x) (hy : IsReal y) : IsReal (x + y) := by
  obtain ⟨a, rfl⟩ := hx; obtain ⟨b, rfl⟩ := hy
  exact ⟨a + b, (EReal.coe_add a b).symm⟩
theorem IsReal.sub {x y : EReal} (hx : IsReal x) (hy : IsReal y) : IsReal (x - y) := by
  obtain ⟨a, rfl⟩ := hx; obtain ⟨b, rfl⟩ := hy
  exact ⟨a - b, (EReal.coe_sub a b).symm⟩
theorem IsReal.mul {x y : EReal} (hx : IsReal x) (hy : IsReal y) : IsReal (x * y) := by
  obtain ⟨a, rfl⟩ := hx; obtain ⟨b, rfl⟩ := hy
  exact ⟨a * b, (EReal.coe_mul a b).symm⟩
theorem IsReal.neg {x : EReal} (hx : IsReal x) : IsReal (-x) := by
  obtain ⟨a, rfl⟩ := hx
  exact ⟨-a, (EReal.coe_neg a).symm⟩
theorem IsReal.max {x y : EReal} (hx : IsReal x) (hy : IsReal y) : IsReal (max x y) := by
  rcases le_total x y with h | h
  · rw [max_eq_right h]; exact hy
  · rw [max_eq_left h]; exact hx
theorem IsReal.max_zero {x : EReal} (hx : IsReal x) : IsReal (Max.max x 0) := hx.max isReal_zero

/-- The quotient of two reals, the divisor not zero, is the real quotient. -/
theorem div_coe_coe (a c : ℝ) (hc : c ≠ 0) : Ideal.div (a : EReal) (c : EReal) = ((a / c : ℝ) : EReal) := by
  rw [Ideal.div_coe hc, ← EReal.coe_mul, mul_one_div]
theorem IsReal.div {x y : EReal} (hx : IsReal x) (hy : IsReal y) (h0 : y ≠ 0) : IsReal (Ideal.div x y) := by
  obtain ⟨a, rfl⟩ := hx; obtain ⟨b, rfl⟩ := hy
  have hb : b ≠ 0 := by rintro rfl; exact h0 EReal.coe_zero
  exact ⟨a / b, div_coe_coe a b hb⟩
theorem IsReal.div_coe {x : EReal} (hx : IsReal x) {c : ℝ} (hc : c ≠ 0) : IsReal (Ideal.div x (c : EReal)) := by
  obtain ⟨a, rfl⟩ := hx
  exact ⟨a / c, div_coe_coe a c hc⟩

/-- The reciprocal square root of a positive real r is the real (√r)⁻¹, which is positive. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']
theorem rsqrt_pos_real {r : ℝ} (hr : 0 < r) : ∃ s : ℝ, 0 < s ∧ Ideal.rsqrt (r : EReal) = (s : EReal) :=
  ⟨(Real.sqrt r)⁻¹, inv_pos.mpr (Real.sqrt_pos.mpr hr), rsqrt_coe_pos hr⟩
theorem IsReal.rsqrt_pos {x : EReal} (hx : IsReal x) (h : 0 < x) : IsReal (Ideal.rsqrt x) := by
  obtain ⟨r, rfl⟩ := hx
  exact ⟨_, rsqrt_coe_pos (EReal.coe_pos.mp h)⟩

/-- The coercion of a finite real sum is the sum of the coercions. -/
theorem coe_sum {ι : Type*} (s : Finset ι) (f : ι → ℝ) : ((∑ i ∈ s, f i : ℝ) : EReal) = ∑ i ∈ s, (f i : EReal) := by
  classical
  refine Finset.induction_on s ?_ ?_
  · rw [Finset.sum_empty, Finset.sum_empty]; rfl
  · intro a s ha ih
    rw [Finset.sum_insert ha, Finset.sum_insert ha, EReal.coe_add, ih]
theorem IsReal.sum {ι : Type*} (s : Finset ι) (f : ι → EReal) (h : ∀ i ∈ s, IsReal (f i)) : IsReal (∑ i ∈ s, f i) := by
  classical
  revert h
  refine Finset.induction_on s ?_ ?_
  · intro _; rw [Finset.sum_empty]; exact isReal_zero
  · intro a s ha ih h
    rw [Finset.sum_insert ha]
    exact (h a (Finset.mem_insert_self a s)).add (ih fun i hi => h i (Finset.mem_insert_of_mem hi))
theorem IsReal.sum_univ {ι : Type*} [Fintype ι] (f : ι → EReal) (h : ∀ i, IsReal (f i)) : IsReal (∑ i, f i) :=
  IsReal.sum _ f fun i _ => h i

/-! The same closure facts over the float operations read at the exact instance. -/

theorem IsReal.addf {φ : FTy} {x y : Ideal φ} (hx : IsReal x) (hy : IsReal y) : IsReal (FloatOps.addf x y) := hx.add hy
theorem IsReal.subf {φ : FTy} {x y : Ideal φ} (hx : IsReal x) (hy : IsReal y) : IsReal (FloatOps.subf x y) := hx.sub hy
theorem IsReal.mulf {φ : FTy} {x y : Ideal φ} (hx : IsReal x) (hy : IsReal y) : IsReal (FloatOps.mulf x y) := hx.mul hy
theorem IsReal.maximumf {φ : FTy} {x y : Ideal φ} (hx : IsReal x) (hy : IsReal y) : IsReal (FloatOps.maximumf x y) := hx.max hy
theorem IsReal.divf {φ : FTy} {x y : Ideal φ} (hx : IsReal x) (hy : IsReal y) (h0 : y ≠ 0) : IsReal (FloatOps.divf x y) := hx.div hy h0
theorem IsReal.hostDivf {φ : FTy} {x y : Ideal φ} (hx : IsReal x) (hy : IsReal y) (h0 : y ≠ 0) : IsReal (FloatOps.hostDivf x y) := hx.div hy h0
theorem IsReal.rsqrtf {φ : FTy} {x : Ideal φ} (hx : IsReal x) (h : (0 : EReal) < x) : IsReal (FloatOps.rsqrt x) := hx.rsqrt_pos h

/-! ## The batch statistics -/

section Stats

variable {ι : Type*} [Fintype ι]

/-- Over the reals: with N the number of indices, the mean of the squares less the square of the mean is
    the mean of the squared deviations. Expanding the square, the cross term is 2 · mean · Σx = 2 · N · mean²
    and the constant term sums to N · mean². -/
theorem real_batch_var (N : ℝ) (hN : (Fintype.card ι : ℝ) = N) (hN0 : N ≠ 0) (r : ι → ℝ) :
    (∑ i, r i * r i) / N - (∑ i, r i) / N * ((∑ i, r i) / N)
      = (∑ i, (r i - (∑ i, r i) / N) * (r i - (∑ i, r i) / N)) / N := by
  have h1 : ∀ m : ℝ, ∑ i, (r i - m) * (r i - m) = (∑ i, r i * r i) - 2 * m * (∑ i, r i) + N * (m * m) := by
    intro m
    have h2 : ∀ i, (r i - m) * (r i - m) = r i * r i - 2 * m * r i + m * m := fun i => by ring
    simp only [h2]
    rw [Finset.sum_add_distrib, Finset.sum_sub_distrib, ← Finset.mul_sum, Finset.sum_const, Finset.card_univ,
      nsmul_eq_mul, hN]
  rw [h1]
  field_simp
  ring

/-- The number of indices, not zero, is positive. -/
theorem card_pos_of_ne (N : ℝ) (hN : (Fintype.card ι : ℝ) = N) (hN0 : N ≠ 0) : 0 < N :=
  lt_of_le_of_ne (hN ▸ Nat.cast_nonneg _) hN0.symm

/-- Over the reals the mean of the squared deviations is not negative. -/
theorem real_var_nonneg (N : ℝ) (hN : (Fintype.card ι : ℝ) = N) (hN0 : N ≠ 0) (r : ι → ℝ) (m : ℝ) :
    0 ≤ (∑ i, (r i - m) * (r i - m)) / N :=
  div_nonneg (Finset.sum_nonneg fun i _ => mul_self_nonneg _) (card_pos_of_ne N hN hN0).le

/-- The mean of real entries, as the real quotient. -/
theorem mean_coe (Nr : ℝ) (hN0 : Nr ≠ 0) (r : ι → ℝ) :
    Ideal.div (∑ i, (r i : EReal)) (Nr : EReal) = (((∑ i, r i) / Nr : ℝ) : EReal) := by
  rw [← coe_sum, div_coe_coe _ _ hN0]

/-- The mean of the squared deviations of real entries, as a real. -/
theorem var2_coe (Nr : ℝ) (hN0 : Nr ≠ 0) (r : ι → ℝ) :
    Ideal.div (∑ i, ((r i : EReal) - Ideal.div (∑ i, (r i : EReal)) (Nr : EReal))
        * ((r i : EReal) - Ideal.div (∑ i, (r i : EReal)) (Nr : EReal))) (Nr : EReal)
      = (((∑ i, (r i - (∑ i, r i) / Nr) * (r i - (∑ i, r i) / Nr)) / Nr : ℝ) : EReal) := by
  rw [mean_coe Nr hN0 r]
  simp only [← EReal.coe_sub, ← EReal.coe_mul]
  rw [← coe_sum, div_coe_coe _ _ hN0]

/-- The mean of real entries is real. -/
theorem isReal_mean (Nr : ℝ) (hN0 : Nr ≠ 0) (x : ι → EReal) (hx : ∀ i, IsReal (x i)) :
    IsReal (Ideal.div (∑ i, x i) (Nr : EReal)) :=
  (IsReal.sum_univ x hx).div_coe hN0

/-- One pass against two: for real entries over an index type of Nr elements, the mean of the squares
    less the square of the mean, cut off below at zero, is the mean of the squared deviations. -/
theorem batch_var (Nr : ℝ) (hN : (Fintype.card ι : ℝ) = Nr) (hN0 : Nr ≠ 0) (x : ι → EReal) (hx : ∀ i, IsReal (x i)) :
    max (Ideal.div (∑ i, x i * x i) (Nr : EReal)
          - Ideal.div (∑ i, x i) (Nr : EReal) * Ideal.div (∑ i, x i) (Nr : EReal)) 0
      = Ideal.div (∑ i, (x i - Ideal.div (∑ i, x i) (Nr : EReal)) * (x i - Ideal.div (∑ i, x i) (Nr : EReal))) (Nr : EReal) := by
  choose r hr using hx
  simp only [hr]
  have hsq : Ideal.div (∑ i, (r i : EReal) * (r i : EReal)) (Nr : EReal) = (((∑ i, r i * r i) / Nr : ℝ) : EReal) := by
    simp only [← EReal.coe_mul]
    rw [← coe_sum, div_coe_coe _ _ hN0]
  rw [var2_coe Nr hN0 r, mean_coe Nr hN0 r, hsq, ← EReal.coe_mul, ← EReal.coe_sub, real_batch_var Nr hN hN0 r]
  exact max_eq_left (EReal.coe_nonneg.mpr (real_var_nonneg Nr hN hN0 r _))

/-- The mean of the squared deviations is a nonnegative real. -/
theorem batch_var_nonneg (Nr : ℝ) (hN : (Fintype.card ι : ℝ) = Nr) (hN0 : Nr ≠ 0) (x : ι → EReal) (hx : ∀ i, IsReal (x i)) :
    ∃ v : ℝ, 0 ≤ v ∧
      Ideal.div (∑ i, (x i - Ideal.div (∑ i, x i) (Nr : EReal)) * (x i - Ideal.div (∑ i, x i) (Nr : EReal))) (Nr : EReal) = (v : EReal) := by
  choose r hr using hx
  simp only [hr]
  exact ⟨_, real_var_nonneg Nr hN hN0 r _, var2_coe Nr hN0 r⟩

/-- … and with a positive real added it is a positive real. -/
theorem batch_var_add_pos (Nr : ℝ) (hN : (Fintype.card ι : ℝ) = Nr) (hN0 : Nr ≠ 0) (x : ι → EReal) (hx : ∀ i, IsReal (x i))
    (e : ℝ) (he : 0 < e) :
    ∃ v : ℝ, 0 < v ∧
      Ideal.div (∑ i, (x i - Ideal.div (∑ i, x i) (Nr : EReal)) * (x i - Ideal.div (∑ i, x i) (Nr : EReal))) (Nr : EReal) + (e : EReal)
        = (v : EReal) := by
  obtain ⟨v, hv, h⟩ := batch_var_nonneg Nr hN hN0 x hx
  exact ⟨v + e, add_pos_of_nonneg_of_pos hv he, by rw [h, EReal.coe_add]⟩

/-- … so its reciprocal square root is a positive real. -/
theorem batch_rsqrt_real (Nr : ℝ) (hN : (Fintype.card ι : ℝ) = Nr) (hN0 : Nr ≠ 0) (x : ι → EReal) (hx : ∀ i, IsReal (x i))
    (e : ℝ) (he : 0 < e) :
    ∃ s : ℝ, 0 < s ∧
      Ideal.rsqrt (Ideal.div (∑ i, (x i - Ideal.div (∑ i, x i) (Nr : EReal)) * (x i - Ideal.div (∑ i, x i) (Nr : EReal))) (Nr : EReal)
          + (e : EReal)) = (s : EReal) := by
  obtain ⟨v, hv, h⟩ := batch_var_add_pos Nr hN hN0 x hx e he
  rw [h]
  exact rsqrt_pos_real hv

end Stats

/-! ## Sums over Fin (a * b) as double sums -/

section Reindex

/-- The pair (t, r) stands for the index b * t + r of Fin n, n = a * b. -/
def finProdEquiv (a b n : ℕ) (h : a * b = n) : Fin a × Fin b ≃ Fin n := finProdFinEquiv.trans (finCongr h)

theorem finProdEquiv_val (a b n : ℕ) (h : a * b = n) (t : Fin a) (r : Fin b) :
    (finProdEquiv a b n h (t, r)).val = b * t.val + r.val := by
  show r.val + b * t.val = b * t.val + r.val
  exact Nat.add_comm _ _
theorem finProdEquiv_symm_fst_val (a b n : ℕ) (h : a * b = n) (k : Fin n) :
    ((finProdEquiv a b n h).symm k).1.val = k.val / b := rfl
theorem finProdEquiv_symm_snd_val (a b n : ℕ) (h : a * b = n) (k : Fin n) :
    ((finProdEquiv a b n h).symm k).2.val = k.val % b := rfl

variable {M : Type*} [AddCommMonoid M]

theorem sum_finProd (a b n : ℕ) (h : a * b = n) (f : Fin n → M) :
    ∑ p : Fin a × Fin b, f (finProdEquiv a b n h p) = ∑ k : Fin n, f k :=
  Equiv.sum_comp (finProdEquiv a b n h) f
theorem sum_sum_finProd (a b n : ℕ) (h : a * b = n) (f : Fin n → M) :
    ∑ t : Fin a, ∑ r : Fin b, f (finProdEquiv a b n h (t, r)) = ∑ k : Fin n, f k := by
  rw [← sum_finProd a b n h f, Fintype.sum_prod_type]
/-- The same for a sum restricted by a predicate. -/
theorem sum_filter_finProd (a b n : ℕ) (h : a * b = n) (P : Fin n → Prop) [DecidablePred P] (f : Fin n → M) :
    ∑ t : Fin a, ∑ r ∈ Finset.univ.filter (fun r : Fin b => P (finProdEquiv a b n h (t, r))), f (finProdEquiv a b n h (t, r))
      = ∑ k ∈ Finset.univ.filter P, f k := by
  rw [Finset.sum_filter, ← sum_sum_finProd a b n h fun k => if P k then f k else 0]
  exact Finset.sum_congr rfl fun t _ => Finset.sum_filter _ _

/-- Ten blocks of 5000 rows: the pair (t, r) is row 5000 * t + r of 50000. -/
abbrev rowsEquiv : Fin 10 × Fin 5000 ≃ Fin 50000 := finProdEquiv 10 5000 50000 (by norm_num)
/-- Eight chunks of 200000 edges: the pair (c, e) is edge 200000 * c + e of 1600000. -/
abbrev edgesEquiv : Fin 8 × Fin 200000 ≃ Fin 1600000 := finProdEquiv 8 200000 1600000 (by norm_num)

theorem rowsEquiv_val (t : Fin 10) (r : Fin 5000) : (rowsEquiv (t, r)).val = 5000 * t.val + r.val :=
  finProdEquiv_val 10 5000 50000 _ t r
theorem edgesEquiv_val (c : Fin 8) (e : Fin 200000) : (edgesEquiv (c, e)).val = 200000 * c.val + e.val :=
  finProdEquiv_val 8 200000 1600000 _ c e
theorem sum_rows (f : Fin 50000 → M) : ∑ t : Fin 10, ∑ r : Fin 5000, f (rowsEquiv (t, r)) = ∑ k : Fin 50000, f k :=
  sum_sum_finProd 10 5000 50000 _ f
theorem sum_edges (f : Fin 1600000 → M) : ∑ c : Fin 8, ∑ e : Fin 200000, f (edgesEquiv (c, e)) = ∑ k : Fin 1600000, f k :=
  sum_sum_finProd 8 200000 1600000 _ f

end Reindex

end Cert.Hand.LibStats

end
-- ==== Proof.RowKl.lean ====
/-
  The mathematics the kernel and the reference share, over the extended reals, with no program in sight.

  A row x of logits has its maximum M (taken from −∞), its shifted entries x_v − M, the sum
  Σ_v exp (x_v − M) and its log-softmax  x_v − M − log Σ.  For a student row s and a teacher row t the
  forward KL term of the row is  Σ_v [s_v infinite ? 0 : p_v · (logsoftmax t_v − logsoftmax s_v)],
  where the teacher probability p_v is spelled in two ways:
     exp (t_v − M) / Σ           (one spelling),
     exp (logsoftmax t_v)        (the other).
  For a row of REAL teacher logits the two agree: M is real, Σ is a positive real, and
  exp (a − log Σ) = exp a / Σ.  With an infinite teacher entry they need not (∞ − ∞), which is why the
  statement is under finiteness.

  The loss is a masked sum of row terms divided by a count.  One spelling walks all 2048 positions of
  each batch row in 128 groups of 16, with a mask that is zero at the last position; the other
  walks the first 2047 positions.  A term times zero is zero, so the two masked sums agree.
-/
import proofs.«119242_j5231270166835_1_alg».proof.Proof.LibStats
import Idealize.ShloMosaic.PureOps.Ideal
import Idealize.ShloMosaic.PureOps.Ideal.Laws
import Idealize.ShloMosaic.Lib.ValueIdx

noncomputable section

namespace Distill

open Idealize.ShloMosaic Idealize.ShloMosaic.ValueIdx Cert.Hand.LibStats
open scoped BigOperators

/-! ## One row -/

section Row

variable {ι : Type} [Fintype ι]

/-- The maximum of a row, taken from −∞. -/
def rowMax (x : ι → EReal) : EReal := (Finset.univ : Finset ι).fold max ⊥ x

/-- An entry less the row's maximum. -/
def shifted (x : ι → EReal) (v : ι) : EReal := x v - rowMax x

/-- The sum of the exponentials of the shifted entries. -/
def sumExp (x : ι → EReal) : EReal := ∑ v, Ideal.exp (shifted x v)

/-- The log-softmax of a row at an entry. -/
def logSoftmax (x : ι → EReal) (v : ι) : EReal := shifted x v - Ideal.log (sumExp x)

/-- The test "this entry is infinite": |a| = +∞, as a bit. -/
def infBit (a : EReal) : BitVec 1 := Ideal.cmp .oeq (max a (-a)) (Ideal.ofBits .f32 0x7F800000#32)

/-- The row's KL term with the teacher probability spelled exp (t − M) / Σ. -/
def klQuot (s t : ι → EReal) : EReal :=
  ∑ v, Scalar.select (infBit (s v)) (0 : EReal)
    (Ideal.div (Ideal.exp (shifted t v)) (sumExp t) * (logSoftmax t v - logSoftmax s v))

/-- The row's KL term with the teacher probability spelled exp (logsoftmax t). -/
def klExp (s t : ι → EReal) : EReal :=
  ∑ v, Scalar.select (infBit (s v)) (0 : EReal)
    (Ideal.exp (logSoftmax t v) * (logSoftmax t v - logSoftmax s v))

/-- The maximum of a nonempty row of reals is a real. -/
theorem rowMax_real [Nonempty ι] (r : ι → ℝ) : ∃ M : ℝ, rowMax (fun v => (r v : EReal)) = (M : EReal) := by
  have h : IsReal (rowMax fun v => (r v : EReal)) := by
    rw [isReal_iff]
    constructor
    · apply ne_of_gt
      unfold rowMax
      rw [Finset.lt_fold_max]
      exact Or.inr ⟨Classical.arbitrary ι, Finset.mem_univ _, EReal.bot_lt_coe _⟩
    · apply ne_of_lt
      unfold rowMax
      rw [Finset.fold_max_lt]
      exact ⟨bot_lt_top, fun v _ => EReal.coe_lt_top _⟩
  exact h

/-- For a nonempty row of real teacher logits the two spellings of the teacher probability agree:
    exp (t_v − M) / Σ = exp (t_v − M − log Σ), because Σ is a positive real. -/
theorem quot_eq_exp_logSoftmax [Nonempty ι] (t : ι → EReal) (ht : ∀ v, IsReal (t v)) (v : ι) :
    Ideal.div (Ideal.exp (shifted t v)) (sumExp t) = Ideal.exp (logSoftmax t v) := by
  choose r hr using ht
  obtain rfl : t = fun v => (r v : EReal) := funext hr
  obtain ⟨M, hM⟩ := rowMax_real r
  have hsh : ∀ w, shifted (fun v => (r v : EReal)) w = ((r w - M : ℝ) : EReal) := fun w => by
    unfold shifted; rw [hM]; exact (EReal.coe_sub _ _).symm
  have hsum : sumExp (fun v => (r v : EReal)) = ((∑ w, Real.exp (r w - M) : ℝ) : EReal) := by
    unfold sumExp
    rw [coe_sum]
    exact Finset.sum_congr rfl fun w _ => by rw [hsh w, Ideal.exp_coe]
  have hpos : 0 < ∑ w, Real.exp (r w - M) :=
    Finset.sum_pos (fun w _ => Real.exp_pos _) Finset.univ_nonempty
  unfold logSoftmax
  rw [hsh v, hsum, Ideal.exp_coe, Ideal.log_coe, if_neg (not_le.mpr hpos), div_coe_coe _ _ hpos.ne',
    ← EReal.coe_sub, Ideal.exp_coe, Real.exp_sub (r v - M) (Real.log (∑ w, Real.exp (r w - M))), Real.exp_log hpos]

/-- So for such a teacher row the two row terms are one extended real. -/
theorem klQuot_eq_klExp [Nonempty ι] (s t : ι → EReal) (ht : ∀ v, IsReal (t v)) : klQuot s t = klExp s t := by
  unfold klQuot klExp
  exact Finset.sum_congr rfl fun v _ => by rw [quot_eq_exp_logSoftmax t ht v]

end Row

/-! ## The whole loss -/

/-- The logits' shape, the mask's over the first 2047 positions, and the mask's over all 2048 as a column. -/
abbrev SX : Shape := ⟨3, ![2, 2048, 32000]⟩
abbrev SM : Shape := ⟨2, ![2, 2047]⟩
abbrev SMF : Shape := ⟨3, ![2, 2048, 1]⟩

/-- Row (b, p) of a logits array. -/
def row (X : SX.Idx → EReal) (b : Fin 2) (p : Fin 2048) : Fin 32000 → EReal := fun k => X (ix3 b p k)

/-- Position 16 j + r: entry r of group j. -/
def pos (j : Fin 128) (r : Fin 16) : Fin 2048 := ⟨16 * j.val + r.val, by have := j.isLt; have := r.isLt; omega⟩

/-- The loss walked in 128 groups of 16 positions over all 2048, with the full-length mask. -/
def lossGrouped (mfull : SMF.Idx → EReal) (den : EReal) (X T : SX.Idx → EReal) : EReal :=
  Ideal.div (∑ b : Fin 2, ∑ j : Fin 128, ∑ r : Fin 16,
    klQuot (row X b (pos j r)) (row T b (pos j r)) * mfull (ix3 b (pos j r) 0)) den

/-- The loss walked over the first 2047 positions, with the mask over those. -/
def lossSliced (msk : SM.Idx → EReal) (den : EReal) (X T : SX.Idx → EReal) : EReal :=
  Ideal.div (∑ i : SM.Idx, klExp (row X (i 0) (i 1).castSucc) (row T (i 0) (i 1).castSucc) * msk i) den

theorem pos_eq (j : Fin 128) (r : Fin 16) : pos j r = finProdEquiv 128 16 2048 rfl (j, r) :=
  Fin.ext (finProdEquiv_val 128 16 2048 rfl j r).symm

/-- A sum over 128 groups of 16 is the sum over the 2048 positions. -/
theorem sum_groups (g : Fin 2048 → EReal) : ∑ j : Fin 128, ∑ r : Fin 16, g (pos j r) = ∑ p : Fin 2048, g p := by
  simp only [pos_eq]
  exact sum_sum_finProd 128 16 2048 rfl g

/-- The two walks give one loss when the full-length mask is the short one on the first 2047 positions and zero
    at the last, and the teacher logits are real. -/
theorem lossGrouped_eq_lossSliced (mfull : SMF.Idx → EReal) (msk : SM.Idx → EReal) (den : EReal) (X T : SX.Idx → EReal)
    (hm : ∀ (b : Fin 2) (p : Fin 2047), mfull (ix3 b p.castSucc 0) = msk (ix2 b p))
    (hz : ∀ b : Fin 2, mfull (ix3 b (Fin.last 2047) 0) = 0)
    (hT : ∀ i, IsReal (T i)) :
    lossGrouped mfull den X T = lossSliced msk den X T := by
  unfold lossGrouped lossSliced
  refine congrArg (fun x => Ideal.div x den) ?_
  rw [sum_idx2]
  refine Finset.sum_congr rfl fun b _ => ?_
  rw [sum_groups fun p => klQuot (row X b p) (row T b p) * mfull (ix3 b p 0)]
  rw [Fin.sum_univ_castSucc (n := 2047) fun p => klQuot (row X b p) (row T b p) * mfull (ix3 b p 0)]
  rw [hz b, mul_zero, add_zero]
  refine Finset.sum_congr rfl fun p _ => ?_
  show klQuot (row X b p.castSucc) (row T b p.castSucc) * mfull (ix3 b p.castSucc 0)
    = klExp (row X b p.castSucc) (row T b p.castSucc) * msk (ix2 b p)
  rw [hm b p, klQuot_eq_klExp (row X b p.castSucc) (row T b p.castSucc) fun v => hT (ix3 b p.castSucc v)]

end Distill

end
-- ==== Proof.KernelPayload.lean ====
/-
  The kernel body's arithmetic read entry by entry over the extended reals.

  The body sees a block of 16 rows.  For row r it forms, from the student row s = x0[0, r, ·] and the teacher
  row t = x1[0, r, ·]: the row maxima (from −∞), the shifted rows, the sums of their exponentials, the two
  log-softmaxes, the teacher probabilities exp (t − max t) / Σ, and the sum over the row of
  [s_v infinite ? 0 : p_v · (logsoftmax t_v − logsoftmax s_v)].  That is the row term `Distill.klQuot s t`.
  It then multiplies the 16 row terms by the 16 mask entries, sums the products and adds the sum to what the
  accumulator held.
-/
import proofs.«119242_j5231270166835_1_alg».proof.Proof.RowKl
import proofs.«119242_j5231270166835_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.ValueIdx

namespace Cert.KernelIdeal.Payload

open Cert.KernelIdeal Cert.KernelIdeal.Gen Distill

/-! ## Reading the layout operations and the row reductions at an index -/

/-- Entry (r, k) of the 16 × 32000 view of a 1 × 16 × 32000 block. -/
theorem block_row (x : Vec Ideal S1x16x32000 .f32) (h : S1x16x32000.ShapeCasts S16x32000) (r : Fin 16) (k : Fin 32000) :
    shapeCast S16x32000 x h (ix2 r k) = x (ix3 0 r k) :=
  shapeCast_1ab_ab_apply x h r k

/-- Entry (r, 0) of the 16 × 1 view of a 1 × 16 × 1 block. -/
theorem block_col (x : Vec Ideal S1x16x1 .f32) (h : S1x16x1.ShapeCasts S16x1) (r : Fin 16) :
    shapeCast S16x1 x h (ix2 r 0) = x (ix3 0 r 0) :=
  shapeCast_1ab_ab_apply x h r 0

/-- A 16-vector stood up as a column: its entry (r, 0) is entry r. -/
theorem as_col (u : FVec Ideal S16 .f32) (h : S16.ShapeCasts S16x1) (r : Fin 16) :
    shapeCast S16x1 u h (ix2 r 0) = u (ix1 r) :=
  shapeCast_apply u h (ix2 r 0) (ix1 r) (by
    rw [Shape.rowMajor_val_two, Shape.rowMajor_val_one]
    show r.val = r.val * 1 + 0
    omega)

/-- A column spread along its rows: entry (r, k) is the column's entry (r, 0). -/
theorem spread (w : FVec Ideal S16x1 .f32) (h : S16x1.Broadcasts S16x32000) (r : Fin 16) (k : Fin 32000) :
    broadcastTo S16x32000 w h (ix2 r k) = w (ix2 r 0) :=
  broadcastTo_apply w h (ix2 r k) (ix2 r 0) (fun a => match a with
    | ⟨0, _⟩ => rfl
    | ⟨1, _⟩ => rfl)

/-- The reduced index r with coordinate k put back on the row axis is (r, k). -/
theorem lift_row (h : S16x32000.Reduces [1] S16) (r : Fin 16) (k : Fin (S16x32000.size 1)) :
    h.lift (ix1 r) k = ix2 r (⟨k.val, k.isLt⟩ : Fin 32000) := by
  funext c; apply Fin.ext
  fin_cases c <;> rfl

/-- The word 0xFF800000 denotes −∞. -/
theorem negInf_word : Ideal.ofBits .f32 0xFF800000#32 = ⊥ := by simp [Ideal.ofBits, Ideal.ieee]

/-- A sum along the rows of a 16 × 32000 vector, at row r. -/
theorem row_sum (src : FVec Ideal S16x32000 .f32) (h : S16x32000.Reduces [1] S16) (hφ : FKind.Formats .f32)
    (hacc : (0x00000000#32 : BitVec 32) = FKind.add.neutral .f32 hφ) (r : Fin 16) :
    multiReduction .add [1] S16 src 0x00000000#32 h hφ hacc (ix1 r) = ∑ k : Fin 32000, src (ix2 r k) := by
  refine (Ideal.multiReduction_add_single src 0x00000000#32 h hφ hacc (ix1 r)).trans ?_
  exact Finset.sum_congr rfl fun k _ => congrArg src (lift_row h r k)

/-- A maximum along the rows of a 16 × 32000 vector from −∞, at row r. -/
theorem row_max (src : FVec Ideal S16x32000 .f32) (h : S16x32000.Reduces [1] S16) (hφ : FKind.Formats .f32)
    (hacc : (0xFF800000#32 : BitVec 32) = FKind.maximumf.neutral .f32 hφ) (r : Fin 16) :
    multiReduction .maximumf [1] S16 src 0xFF800000#32 h hφ hacc (ix1 r) = rowMax (fun k : Fin 32000 => src (ix2 r k)) := by
  refine (Ideal.multiReduction_maximumf_single src 0xFF800000#32 h hφ hacc (ix1 r)).trans ?_
  unfold rowMax
  rw [show (FloatOps.ofBits (F := Ideal) .f32 0xFF800000#32) = (⊥ : EReal) from negInf_word]
  exact congrArg (fun f => (Finset.univ : Finset (Fin 32000)).fold max (⊥ : EReal) f) (funext fun k => congrArg src (lift_row h r k))

theorem exp_at {s : Shape} (a : FVec Ideal s .f32) (i : s.Idx) : exp a i = Ideal.exp (a i) := rfl
theorem log_at {s : Shape} (a : FVec Ideal s .f32) (i : s.Idx) : log a i = Ideal.log (a i) := rfl
theorem absf_at {s : Shape} (a : FVec Ideal s .f32) (i : s.Idx) : absf a i = max (a i) (-(a i)) := rfl

/-- A position in a shape of one element is position 0. -/
theorem val_zero_of_one {n : ℕ} (h : n = 1) (x : Fin n) : x.val = 0 := by have := x.isLt; omega

/-- A one-element vector recast as 1 × 1 and then 1 × 1 × 1 holds its one entry. -/
theorem one_entry (u : FVec Ideal S1 .f32) (h1 : S1.ShapeCasts S1x1) (h2 : S1x1.ShapeCasts S1x1x1) (i : S1x1x1.Idx) :
    shapeCast S1x1x1 (shapeCast S1x1 u h1) h2 i = u (ix1 0) := by
  rw [shapeCast_apply (shapeCast S1x1 u h1) h2 i (ix2 0 0)
      ((val_zero_of_one (by decide) _).trans (val_zero_of_one (by decide) _).symm),
    shapeCast_apply u h1 (ix2 0 0) (ix1 0)
      ((val_zero_of_one (by decide) _).trans (val_zero_of_one (by decide) _).symm)]

/-- The reduced index 0 with row r put back on the column's row axis is (r, 0). -/
theorem lift_col (h : S16x1.Reduces [0] S1) (k : Fin (S16x1.size 0)) :
    h.lift (ix1 (0 : Fin 1)) k = ix2 (⟨k.val, k.isLt⟩ : Fin 16) (0 : Fin 1) := by
  funext c; apply Fin.ext
  fin_cases c <;> rfl

/-- A sum down a 16 × 1 column. -/
theorem col_sum (src : FVec Ideal S16x1 .f32) (h : S16x1.Reduces [0] S1) (hφ : FKind.Formats .f32)
    (hacc : (0x00000000#32 : BitVec 32) = FKind.add.neutral .f32 hφ) :
    multiReduction .add [0] S1 src 0x00000000#32 h hφ hacc (ix1 0) = ∑ r : Fin 16, src (ix2 r 0) := by
  refine (Ideal.multiReduction_add_single src 0x00000000#32 h hφ hacc (ix1 0)).trans ?_
  exact Finset.sum_congr rfl fun k _ => congrArg src (lift_col h k)

/-! ## The row reductions as named operations -/

/-- The maximum along each row, from −∞. -/
def maxRows (v : FVec Ideal S16x32000 .f32) : FVec Ideal S16 .f32 :=
  multiReduction .maximumf [1] S16 v 0xFF800000#32 Facts₀.reduces_S16x32000_S16

/-- The sum along each row. -/
def sumRows (v : FVec Ideal S16x32000 .f32) : FVec Ideal S16 .f32 :=
  multiReduction .add [1] S16 v 0x00000000#32 Facts₀.reduces_S16x32000_S16

/-- The sum down a 16 × 1 column. -/
def sumCol (v : FVec Ideal S16x1 .f32) : FVec Ideal S1 .f32 :=
  multiReduction .add [0] S1 v 0x00000000#32 Facts₀.reduces_S16x1_S1

theorem maxRows_apply (v : FVec Ideal S16x32000 .f32) (r : Fin 16) :
    maxRows v (ix1 r) = rowMax (fun k : Fin 32000 => v (ix2 r k)) := by
  unfold maxRows
  exact row_max v _ _ _ r

theorem sumRows_apply (v : FVec Ideal S16x32000 .f32) (r : Fin 16) :
    sumRows v (ix1 r) = ∑ k : Fin 32000, v (ix2 r k) := by
  unfold sumRows
  exact row_sum v _ _ _ r

theorem sumCol_apply (v : FVec Ideal S16x1 .f32) : sumCol v (ix1 0) = ∑ r : Fin 16, v (ix2 r 0) := by
  unfold sumCol
  exact col_sum v _ _ _

/-! ## The 16 row terms -/

/-- The block's 16 row terms from the 16 × 32000 views of the student and teacher blocks: the body's own operations,
    in its order, with the row reductions named. -/
def rowTermsSpec (v4 v6 : FVec Ideal S16x32000 .f32) : FVec Ideal S16 .f32 :=
  have v12 : FVec Ideal S16x32000 .f32 := subf v4 (broadcastTo S16x32000 (shapeCast S16x1 (maxRows v4) Facts₀.shapeCasts_S16_S16x1) Facts₀.broadcasts_S16x1_S16x32000)
  have v15 : FVec Ideal S16x1 .f32 := shapeCast S16x1 (sumRows (exp v12)) Facts₀.shapeCasts_S16_S16x1
  have v18 : FVec Ideal S16x32000 .f32 := subf v12 (broadcastTo S16x32000 (log v15) Facts₀.broadcasts_S16x1_S16x32000)
  have v22 : FVec Ideal S16x32000 .f32 := subf v6 (broadcastTo S16x32000 (shapeCast S16x1 (maxRows v6) Facts₀.shapeCasts_S16_S16x1) Facts₀.broadcasts_S16x1_S16x32000)
  have v23 : FVec Ideal S16x32000 .f32 := exp v22
  have v25 : FVec Ideal S16x1 .f32 := shapeCast S16x1 (sumRows v23) Facts₀.shapeCasts_S16_S16x1
  have v28 : FVec Ideal S16x32000 .f32 := subf v22 (broadcastTo S16x32000 (log v25) Facts₀.broadcasts_S16x1_S16x32000)
  have v30 : FVec Ideal S16x32000 .f32 := divf v23 (broadcastTo S16x32000 v25 Facts₀.broadcasts_S16x1_S16x32000)
  have v33 : IVec S16x32000 1 := cmpf .oeq (absf v4) (broadcast S16x32000 (Scalar.ofBits (F := Ideal) .f32 0x7F800000#32))
  have v37 : FVec Ideal S16x32000 .f32 := select v33 (broadcast S16x32000 (Scalar.ofBits (F := Ideal) .f32 0x00000000#32)) (mulf v30 (subf v28 v18))
  sumRows v37

/-- The body's payload is that. -/
theorem k0_pay4_eq (x0 x1 : Vec Ideal S1x16x32000 .f32) :
    k0_pay4 x0 x1 = rowTermsSpec (shapeCast S16x32000 x0 Facts₀.shapeCasts_S1x16x32000_S16x32000)
      (shapeCast S16x32000 x1 Facts₀.shapeCasts_S1x16x32000_S16x32000) := rfl

/-- Row r of the row terms is the row term of row r of the two views. -/
theorem rowTermsSpec_apply (v4 v6 : FVec Ideal S16x32000 .f32) (r : Fin 16) :
    rowTermsSpec v4 v6 (ix1 r) = klQuot (fun k : Fin 32000 => v4 (ix2 r k)) (fun k : Fin 32000 => v6 (ix2 r k)) := by
  unfold rowTermsSpec
  simp only [sumRows_apply, maxRows_apply, select_apply, cmpf_apply, broadcast_apply, mulf_apply, divf_apply, subf_apply, exp_at,
    log_at, absf_at, spread, as_col, klQuot, shifted, sumExp, logSoftmax, infBit, Ideal.cmpf_def, Ideal.ofBits_def,
    Ideal.ofBits_zero_f32]

/-- Row r of the block's row terms is the row term of the student and teacher rows. -/
theorem rowTerms_apply (x0 x1 : Vec Ideal S1x16x32000 .f32) (r : Fin 16) :
    k0_pay4 x0 x1 (ix1 r) = klQuot (fun k : Fin 32000 => x0 (ix3 0 r k)) (fun k : Fin 32000 => x1 (ix3 0 r k)) :=
  (congrFun (k0_pay4_eq x0 x1) (ix1 r)).trans ((rowTermsSpec_apply _ _ r).trans
    (congrArg₂ klQuot (funext fun k => block_row x0 _ r k) (funext fun k => block_row x1 _ r k)))

/-! ## The mask column and the accumulation -/

/-- The block's mask column, at row r. -/
theorem maskCol_apply (x2 : Vec Ideal S1x16x1 .f32) (r : Fin 16) : k0_pay3 x2 (ix2 r 0) = x2 (ix3 0 r 0) := by
  unfold k0_pay3
  exact block_col x2 _ r

/-- The accumulation step's payload with the column sum named. -/
theorem k0_pay1_eq (v8 : FVec Ideal S16x1 .f32) (v38 : FVec Ideal S16 .f32) (v43 : Vec Ideal S1x1x1 .f32) :
    k0_pay1 v8 v38 v43 = addf (shapeCast S1x1x1 v43 Facts₀.shapeCasts_S1x1x1_S1x1x1)
      (shapeCast S1x1x1 (shapeCast S1x1 (sumCol (mulf (shapeCast S16x1 v38 Facts₀.shapeCasts_S16_S16x1) v8)) Facts₀.shapeCasts_S1_S1x1)
        Facts₀.shapeCasts_S1x1_S1x1x1) := rfl

/-- The accumulator after the step: what it held plus the sum over the 16 rows of row term times mask entry. -/
theorem accumulate_apply (v8 : FVec Ideal S16x1 .f32) (v38 : FVec Ideal S16 .f32) (v43 : Vec Ideal S1x1x1 .f32) (i : S1x1x1.Idx) :
    k0_pay1 v8 v38 v43 i = v43 i + ∑ r : Fin 16, v38 (ix1 r) * v8 (ix2 r 0) := by
  rw [k0_pay1_eq, addf_apply, shapeCast_self, one_entry, sumCol_apply]
  simp only [mulf_apply, as_col]

end Cert.KernelIdeal.Payload

end
-- ==== Proof.AccFold.lean ====
/-
  An accumulator that is reset at every multiple of 128 and otherwise adds.

  Walking the points 0, 1, 2, … with a contribution p n at point n, the accumulator after point n holds
  0 + p n when n is a multiple of 128, and what it held after point n − 1 plus p n otherwise.  In closed form it
  holds the sum of the contributions since the last reset: Σ_{j ≤ n mod 128} p (n − n mod 128 + j).  At the
  last point of a run of 128, n = 128 b + 127, that is the whole run's sum Σ_{j < 128} p (128 b + j).
-/
import Mathlib.Data.Fintype.BigOperators
import Mathlib.Data.EReal.Basic

noncomputable section

namespace Distill

open scoped BigOperators

/-- The accumulator after point n. -/
def accFold (p : ℕ → EReal) : ℕ → EReal
  | 0 => 0 + p 0
  | n + 1 => if (n + 1) % 128 = 0 then 0 + p (n + 1) else accFold p n + p (n + 1)

theorem accFold_zero (p : ℕ → EReal) : accFold p 0 = 0 + p 0 := rfl

theorem accFold_succ (p : ℕ → EReal) (n : ℕ) :
    accFold p (n + 1) = if (n + 1) % 128 = 0 then 0 + p (n + 1) else accFold p n + p (n + 1) := rfl

/-- It holds the sum of the contributions since the last reset. -/
theorem accFold_eq (p : ℕ → EReal) (n : ℕ) :
    accFold p n = ∑ j ∈ Finset.range (n % 128 + 1), p (n - n % 128 + j) := by
  induction n with
  | zero => simp [accFold_zero]
  | succ n ih =>
    rw [accFold_succ]
    split_ifs with h
    · rw [h, zero_add, Finset.sum_range_one]
      rfl
    · have h1 : (n + 1) % 128 = n % 128 + 1 := by omega
      have h2 : n + 1 - (n % 128 + 1) = n - n % 128 := by omega
      rw [ih, h1, h2, Finset.sum_range_succ (fun j => p (n - n % 128 + j)) (n % 128 + 1)]
      have h3 : n - n % 128 + (n % 128 + 1) = n + 1 := by omega
      rw [h3]

/-- After the last point of run b it holds the run's whole sum. -/
theorem accFold_last (p : ℕ → EReal) (b : ℕ) :
    accFold p (128 * b + 127) = ∑ j ∈ Finset.range 128, p (128 * b + j) := by
  rw [accFold_eq]
  have h1 : (128 * b + 127) % 128 = 127 := by omega
  have h2 : 128 * b + 127 - 127 = 128 * b := by omega
  rw [h1, h2]

end Distill

end
-- ==== Proof.KernelAcc.lean ====
/-
  What the accumulator's one-element block holds after each grid point, over the extended reals.

  Point t of the grid (2 batch rows × 128 groups, walked row by row) reads rows 16 j … 16 j + 15 of batch row b
  from the student and teacher logits and the same 16 entries of the mask column; its contribution is
      part t = Σ_{r < 16} klQuot (student row r) (teacher row r) · mask entry r.
  One step leaves  what the block held + part t,  and at the first point of a batch row what it held is the
  zero it was just reset to.  So after point n the block holds the fold `Distill.accFold` of the
  contributions: by induction on the point, never by enumerating the 256 points.
-/
import proofs.«119242_j5231270166835_1_alg».proof.Proof.KernelCases
import proofs.«119242_j5231270166835_1_alg».proof.Proof.KernelPayload
import proofs.«119242_j5231270166835_1_alg».proof.Proof.AccFold

set_option maxRecDepth 16384

noncomputable section

open Idealize.ShloMosaic Idealize.ShloMosaic.TcCoe Idealize.ShloMosaic.ValueIdx Idealize.SL.Sem

namespace Cert.KernelIdeal.Acc

open Cert.KernelIdeal Cert.KernelIdeal.Gen Distill

variable (m : (ℓ : Loc nD τ sig) → Buf (Elt Ideal) ℓ)

/-- The student block, the teacher block and the mask block of point t, at their literal types. -/
abbrev sblk (c : Dev nD) (t : Fin cfg0.N) : Vec Ideal S1x16x32000 .f32 := iblk m c 0 t
abbrev tblk (c : Dev nD) (t : Fin cfg0.N) : Vec Ideal S1x16x32000 .f32 := iblk m c 1 t
abbrev mblk (c : Dev nD) (t : Fin cfg0.N) : Vec Ideal S1x16x1 .f32 := iblk m c 2 t

/-- Point t's contribution: the 16 row terms of its block, each times its mask entry, summed. -/
def part (c : Dev nD) (t : Fin cfg0.N) : EReal :=
  ∑ r : Fin 16, klQuot (fun k : Fin 32000 => sblk m c t (ix3 0 r k)) (fun k : Fin 32000 => tblk m c t (ix3 0 r k))
    * mblk m c t (ix3 0 r 0)

/-- The contributions as a function of the point's number (zero past the grid). -/
def partN (c : Dev nD) (n : ℕ) : EReal := if h : n < cfg0.N then part m c ⟨n, h⟩ else 0

theorem partN_of_lt (c : Dev nD) (n : ℕ) (h : n < cfg0.N) : partN m c n = part m c ⟨n, h⟩ := dif_pos h

/-- One step: over what the block held, the step leaves that plus the point's contribution. -/
theorem step_value (c : Dev nD) (t : Fin cfg0.N) (xo : Vec Ideal S1x1x1 .f32) (i : S1x1x1.Idx) :
    k0_pay1 (k0_pay3 (mblk m c t)) (k0_pay4 (sblk m c t) (tblk m c t)) xo i = xo i + part m c t := by
  rw [Payload.accumulate_apply]
  unfold part
  refine congrArg (fun x => xo i + x) ?_
  exact Finset.sum_congr rfl fun r _ => by rw [Payload.rowTerms_apply, Payload.maskCol_apply]

/-- The zero splat the reset stores. -/
theorem reset_value (i : S1x1x1.Idx) : (k0_pay2 (F := Ideal)) i = 0 := Ideal.ofBits_zero_f32

/-- After point n the accumulator's block holds the fold of the contributions up to n. -/
theorem outsAt_eq (c : Dev nD) (i : S1x1x1.Idx) : ∀ (n : ℕ) (h : n < cfg0.N), outsAt0 m c n h i = accFold (partN m c) n := by
  intro n
  induction n with
  | zero =>
    intro h
    refine (congrFun (outsAt0_A m c ⟨0, h⟩ (Nat.zero_mod _)) i).trans ?_
    refine (congrFun (Cases.first_point (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) ((hcond0_0 ⟨0, h⟩).mpr (Nat.zero_mod _))
      (sblk m c ⟨0, h⟩) (tblk m c ⟨0, h⟩) (mblk m c ⟨0, h⟩)) i).trans ?_
    refine (step_value m c ⟨0, h⟩ (k0_pay2 (F := Ideal)) i).trans ?_
    rw [reset_value, accFold_zero, partN_of_lt m c 0 h]
  | succ n ih =>
    intro h
    by_cases h0 : (n + 1) % 128 = 0
    · refine (congrFun (outsAt0_A m c ⟨n + 1, h⟩ h0) i).trans ?_
      refine (congrFun (Cases.first_point (F := Ideal) c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) ((hcond0_0 ⟨n + 1, h⟩).mpr h0)
        (sblk m c ⟨n + 1, h⟩) (tblk m c ⟨n + 1, h⟩) (mblk m c ⟨n + 1, h⟩)) i).trans ?_
      refine (step_value m c ⟨n + 1, h⟩ (k0_pay2 (F := Ideal)) i).trans ?_
      rw [reset_value, accFold_succ, if_pos h0, partN_of_lt m c (n + 1) h]
    · refine (congrFun (outsAt0_B m c ⟨n + 1, h⟩ h0) i).trans ?_
      refine (congrFun (Cases.later_point (F := Ideal) c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) (fun hh => h0 ((hcond0_0 ⟨n + 1, h⟩).mp hh))
        (sblk m c ⟨n + 1, h⟩) (tblk m c ⟨n + 1, h⟩) (mblk m c ⟨n + 1, h⟩)
        (outsAt0 m c n (Nat.lt_of_succ_lt h))) i).trans ?_
      refine (step_value m c ⟨n + 1, h⟩ (outsAt0 m c n (Nat.lt_of_succ_lt h)) i).trans ?_
      rw [ih (Nat.lt_of_succ_lt h), accFold_succ, if_neg h0, partN_of_lt m c (n + 1) h]

end Cert.KernelIdeal.Acc

end
-- ==== Proof.KernelBlocks.lean ====
/-
  The blocks a grid point reads, as pieces of the whole arrays.

  Point 128 b + j of the grid (batch row b, group j) stages block (b, j, 0) of the student logits, of the
  teacher logits and of the mask column: rows 16 j … 16 j + 15 of batch row b.  So row r of the point's block
  is row (b, 16 j + r) of the array, and the point's contribution is the sum over r < 16 of the row term of
  that row times the mask entry of that position.
-/
import proofs.«119242_j5231270166835_1_alg».proof.Proof.KernelAcc

set_option maxRecDepth 16384

noncomputable section

open Idealize.ShloMosaic Idealize.ShloMosaic.TcCoe Idealize.ShloMosaic.ValueIdx Idealize.SL.Sem

namespace Cert.KernelIdeal.Blocks

open Cert.KernelIdeal Cert.KernelIdeal.Gen Distill

variable (m : (ℓ : Loc nD τ sig) → Buf (Elt Ideal) ℓ)

/-- The printed index maps, decided once over the 256 points: the three inputs move with (point / 128, point mod 128),
    the accumulator's block with point / 128 only. -/
theorem idx_facts : ∀ t : Fin cfg0.N,
    win0_0.index t (0 : Fin 3) = t.val / 128 ∧ win0_0.index t (1 : Fin 3) = t.val % 128 ∧ win0_0.index t (2 : Fin 3) = 0
    ∧ win0_1.index t (0 : Fin 3) = t.val / 128 ∧ win0_1.index t (1 : Fin 3) = t.val % 128 ∧ win0_1.index t (2 : Fin 3) = 0
    ∧ win0_2.index t (0 : Fin 3) = t.val / 128 ∧ win0_2.index t (1 : Fin 3) = t.val % 128 ∧ win0_2.index t (2 : Fin 3) = 0
    ∧ win0_3.index t (0 : Fin 3) = t.val / 128 ∧ win0_3.index t (1 : Fin 3) = 0 ∧ win0_3.index t (2 : Fin 3) = 0 :=
  (by decide +kernel : ∀ t : Fin grid0.N, _)

/-- The student logits, the teacher logits and the full-length mask column as the region finds them. -/
abbrev student (c : Dev nD) : Distill.SX.Idx → EReal := V m c main_arg1
abbrev teacher (c : Dev nD) : Distill.SX.Idx → EReal := V m c main_arg2
abbrev maskFull (c : Dev nD) : Distill.SMF.Idx → EReal := V m c main_v6

/-- Point 128 b + j. -/
abbrev pt (b : Fin 2) (j : Fin 128) : Fin cfg0.N :=
  ⟨128 * b.val + j.val, by have := b.isLt; have := j.isLt; rw [show cfg0.N = 256 from N_0]; omega⟩

/-- Row r of the student block of point (b, j) is row (b, 16 j + r) of the student logits. -/
theorem student_row (c : Dev nD) (b : Fin 2) (j : Fin 128) (r : Fin 16) :
    (fun k : Fin 32000 => Acc.sblk m c (pt b j) (ix3 0 r k)) = row (student m c) b (pos j r) := by
  funext k
  obtain ⟨e0, e1, e2, -⟩ := idx_facts (pt b j)
  have hb := b.isLt; have hj := j.isLt
  show V m c main_arg1 (((cfg0.win 0).blk (pt b j)).view.emb (ix3 0 r k)) = V m c main_arg1 (ix3 b (pos j r) k)
  refine congrArg (V m c main_arg1) (funext fun a => Fin.ext ?_)
  match a with
  | ⟨0, _⟩ => show win0_0.index (pt b j) (0 : Fin 3) * 1 + 1 * 0 = b.val; rw [e0]; show (128 * b.val + j.val) / 128 * 1 + 1 * 0 = b.val; omega
  | ⟨1, _⟩ => show win0_0.index (pt b j) (1 : Fin 3) * 16 + 1 * r.val = 16 * j.val + r.val; rw [e1]; show (128 * b.val + j.val) % 128 * 16 + 1 * r.val = 16 * j.val + r.val; omega
  | ⟨2, _⟩ => show win0_0.index (pt b j) (2 : Fin 3) * 32000 + 1 * k.val = k.val; rw [e2]; omega

/-- The same for the teacher block. -/
theorem teacher_row (c : Dev nD) (b : Fin 2) (j : Fin 128) (r : Fin 16) :
    (fun k : Fin 32000 => Acc.tblk m c (pt b j) (ix3 0 r k)) = row (teacher m c) b (pos j r) := by
  funext k
  obtain ⟨-, -, -, e0, e1, e2, -⟩ := idx_facts (pt b j)
  have hb := b.isLt; have hj := j.isLt
  show V m c main_arg2 (((cfg0.win 1).blk (pt b j)).view.emb (ix3 0 r k)) = V m c main_arg2 (ix3 b (pos j r) k)
  refine congrArg (V m c main_arg2) (funext fun a => Fin.ext ?_)
  match a with
  | ⟨0, _⟩ => show win0_1.index (pt b j) (0 : Fin 3) * 1 + 1 * 0 = b.val; rw [e0]; show (128 * b.val + j.val) / 128 * 1 + 1 * 0 = b.val; omega
  | ⟨1, _⟩ => show win0_1.index (pt b j) (1 : Fin 3) * 16 + 1 * r.val = 16 * j.val + r.val; rw [e1]; show (128 * b.val + j.val) % 128 * 16 + 1 * r.val = 16 * j.val + r.val; omega
  | ⟨2, _⟩ => show win0_1.index (pt b j) (2 : Fin 3) * 32000 + 1 * k.val = k.val; rw [e2]; omega

/-- Entry r of the mask block of point (b, j) is the mask column's entry at position (b, 16 j + r). -/
theorem mask_entry (c : Dev nD) (b : Fin 2) (j : Fin 128) (r : Fin 16) :
    Acc.mblk m c (pt b j) (ix3 0 r 0) = maskFull m c (ix3 b (pos j r) 0) := by
  obtain ⟨-, -, -, -, -, -, e0, e1, e2, -⟩ := idx_facts (pt b j)
  have hb := b.isLt; have hj := j.isLt
  show V m c main_v6 (((cfg0.win 2).blk (pt b j)).view.emb (ix3 0 r 0)) = V m c main_v6 (ix3 b (pos j r) 0)
  refine congrArg (V m c main_v6) (funext fun a => Fin.ext ?_)
  match a with
  | ⟨0, _⟩ => show win0_2.index (pt b j) (0 : Fin 3) * 1 + 1 * 0 = b.val; rw [e0]; show (128 * b.val + j.val) / 128 * 1 + 1 * 0 = b.val; omega
  | ⟨1, _⟩ => show win0_2.index (pt b j) (1 : Fin 3) * 16 + 1 * r.val = 16 * j.val + r.val; rw [e1]; show (128 * b.val + j.val) % 128 * 16 + 1 * r.val = 16 * j.val + r.val; omega
  | ⟨2, _⟩ => show win0_2.index (pt b j) (2 : Fin 3) * 1 + 1 * 0 = 0; rw [e2]

/-- So the contribution of point (b, j) is group j of batch row b's masked row terms. -/
theorem part_eq (c : Dev nD) (b : Fin 2) (j : Fin 128) :
    Acc.part m c (pt b j) = ∑ r : Fin 16, klQuot (row (student m c) b (pos j r)) (row (teacher m c) b (pos j r))
      * maskFull m c (ix3 b (pos j r) 0) := by
  unfold Acc.part
  refine Finset.sum_congr rfl fun r _ => ?_
  rw [student_row m c b j r, teacher_row m c b j r, mask_entry m c b j r]

end Cert.KernelIdeal.Blocks

end
-- ==== Proof.KernelMask.lean ====
/-
  What the host operations before the kernel call leave: the mask and the count.

  From the labels g (int32 [2, 2048]) the program forms the short mask  1 where g[b, p + 1] ≠ −100, else 0  over the
  first 2047 positions; the count is the host sum of the short mask from 0; and the full-length mask column the
  kernel reads is the short mask followed by one zero per batch row, reshaped to [2, 2048, 1].  So the column's
  entry at position p < 2047 is the short mask's, and its entry at the last position is 0.
-/
import proofs.«119242_j5231270166835_1_alg».proof.Proof.KernelBlocks
import Idealize.ShloMosaic.Lib.StableHlo.Run

set_option maxRecDepth 16384

noncomputable section

open Idealize.ShloMosaic Idealize.ShloMosaic.TcCoe Idealize.ShloMosaic.ValueIdx Idealize.SL.Sem

namespace Cert.KernelIdeal.Mask

open Cert.KernelIdeal Cert.KernelIdeal.Gen Distill

variable (m : (ℓ : Loc nD τ sig) → Buf (Elt Ideal) ℓ)

/-- The float mask over the first 2047 positions: the label one position later is not −100. -/
def maskShort (g : IVec S2x2048 32) : FVec Ideal S2x2047 .f32 :=
  uitofp (F := Ideal) .f32 (cmpi .ne (extractStridedSlice S2x2047 ![0, 1] g Facts₀.slices_S2x2048_S2x2047_0_1)
    (broadcastInDim S2x2047 ![] Facts₀.bcast_S_S2x2047 (constantI S_ 32 4294967196#32)))

/-- The labels as launched. -/
abbrev labels (c : Dev nD) : IVec S2x2048 32 := m ((c.tc : Thread nD τ).loc main_arg0)

/-- The count the loss is divided by: the host sum of the short mask from 0. -/
def count (g : IVec S2x2048 32) : FVec Ideal S_ .f32 :=
  Host.reduceAdd (F := Ideal) (maskShort g) (constant (F := Ideal) S_ .f32 0x00000000#32) Facts₀.reducesTo_S2x2047_S_d0_1 Facts₀.h_S_

theorem count_eq (c : Dev nD) : V m c main_v7 = count (labels m c) := by
  show StableHlo.after hostOps0 (fun b => m (c, b)) (Proc.devRef .tc main_v7) = _
  after_results
  rfl

/-- The full-length mask column: the short mask, then a zero, as a column. -/
theorem maskFull_eq (c : Dev nD) :
    V m c main_v6 = shapeCast S2x2048x1 (concatenate S2x2048 1 [⟨S2x2047, maskShort (labels m c)⟩,
      ⟨S2x1, broadcastInDim S2x1 ![] Facts₀.bcast_S_S2x1 (constant (F := Ideal) S_ .f32 0x00000000#32)⟩]
      Facts₀.concatenates_S2x2047_S2x1_S2x2048_d1) Facts₀.shapeCasts_S2x2048_S2x2048x1 := by
  show StableHlo.after hostOps0 (fun b => m (c, b)) (Proc.devRef .tc main_v6) = _
  after_results
  rfl

/-- Position (b, p, 0) of the column is position (b, p) of the [2, 2048] mask: the same row-major place. -/
theorem col_place (b : Fin 2) (p : Fin 2048) :
    (S2x2048.rowMajor (ix2 b p)).val = (S2x2048x1.rowMajor (ix3 b p 0)).val := by
  rw [Shape.rowMajor_val_two, Shape.rowMajor_val_three]
  show b.val * 2048 + p.val = (b.val * 2048 + p.val) * 1 + 0
  omega

/-- On the first 2047 positions the column is the short mask. -/
theorem maskFull_short (c : Dev nD) (b : Fin 2) (p : Fin 2047) :
    Blocks.maskFull m c (ix3 b p.castSucc 0) = maskShort (labels m c) (ix2 b p) := by
  show V m c main_v6 _ = _
  rw [maskFull_eq, shapeCast_apply _ Facts₀.shapeCasts_S2x2048_S2x2048x1 (ix3 b p.castSucc 0) (ix2 b p.castSucc) (col_place b p.castSucc)]
  exact concatenate_pair_apply_left (t := S2x2048) (s₁ := S2x2047) (s₂ := S2x1) (1 : Fin 2) _ _
    Facts₀.concatenates_S2x2047_S2x1_S2x2048_d1 (ix2 b p.castSucc : S2x2048.Idx) rfl (ix2 b p : S2x2047.Idx)
    (fun a => match a with
      | ⟨0, _⟩ => rfl
      | ⟨1, _⟩ => rfl)

/-- At the last position the column is zero. -/
theorem maskFull_last (c : Dev nD) (b : Fin 2) : Blocks.maskFull m c (ix3 b (Fin.last 2047) 0) = 0 := by
  show V m c main_v6 _ = _
  rw [maskFull_eq, shapeCast_apply _ Facts₀.shapeCasts_S2x2048_S2x2048x1 (ix3 b (Fin.last 2047) 0) (ix2 b (Fin.last 2047)) (col_place b (Fin.last 2047))]
  rw [concatenate_pair_apply_right (t := S2x2048) (s₁ := S2x2047) (s₂ := S2x1) (1 : Fin 2) _ _
    Facts₀.concatenates_S2x2047_S2x1_S2x2048_d1 (ix2 b (Fin.last 2047) : S2x2048.Idx) rfl rfl (ix2 b (0 : Fin 1) : S2x1.Idx)
    (fun a ha => match a, ha with
      | ⟨0, _⟩, _ => rfl
      | ⟨1, _⟩, ha => absurd rfl ha)
    (by show 0 + 2047 = 2047; rfl)]
  rw [broadcastInDim_apply _ Facts₀.bcast_S_S2x1 _ (ix2 b (0 : Fin 1)) ix0 (fun a => a.elim0)]
  exact Ideal.ofBits_zero_f32

end Cert.KernelIdeal.Mask

end
-- ==== Proof.KernelFinal.lean ====
/-
  The kernel program's result.

  The accumulator's array is [2, 1, 1]: one element per batch row, its block written back once, after the last of
  the row's 128 points, with what the accumulator then holds: the sum of the row's 128 contributions.  The host
  operations after the call sum the two elements from 0 and divide by the count.  With each contribution the sum
  over 16 positions of row term times mask entry, the result is the grouped loss `Distill.lossGrouped` of the
  full-length mask column, the count and the two logits arrays.
-/
import proofs.«119242_j5231270166835_1_alg».proof.Proof.KernelMask

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Final

open Cert.KernelIdeal Cert.KernelIdeal.Gen Distill

variable (m : (ℓ : Loc nD τ sig) → Buf (Elt Ideal) ℓ) (ρ : Dev nD → PrngReg)

/-- What the accumulator's array ends holding: at batch row b the sum of the contributions of points 128 b … 128 b + 127. -/
def accArr (c : Dev nD) : S2x1x1.Idx → EReal :=
  fun i => ∑ j ∈ Finset.range 128, Acc.partN m c (128 * (i 0).val + j)

/-- The one write-back of a batch row, after its last point, writes the row's whole sum. -/
theorem flushed_eq (c : Dev nD) (t : Fin cfg0.N) (hf : (cfg0.win 3).flush t = true) :
    (dats m 0 c).flushed 3 t = ((cfg0.win 3).blk t).view.read (Elt Ideal) (accArr m c) := by
  have h127 : t.val % 128 = 127 := (flush0_3 t).mp hf
  obtain ⟨-, -, -, -, -, -, -, -, -, e0, -, -⟩ := Blocks.idx_facts t
  show (cfg0.win 3).cut (grid0.coords t) ((dats m 0 c).after 3 t) = _
  rw [after0_3]
  funext y
  have hy : (y 0).val < 1 := (y 0).isLt
  show outsAt0 m c t.val t.isLt y = accArr m c (((cfg0.win 3).blk t).view.emb y)
  rw [Acc.outsAt_eq m c y t.val t.isLt]
  have hemb : ((((cfg0.win 3).blk t).view.emb y) 0).val = t.val / 128 := by
    show win0_3.index t (0 : Fin 3) * 1 + 1 * (y 0).val = t.val / 128
    rw [e0]; omega
  show accFold (Acc.partN m c) t.val = ∑ j ∈ Finset.range 128, Acc.partN m c (128 * ((((cfg0.win 3).blk t).view.emb y) 0).val + j)
  rw [hemb]
  have ht : t.val = 128 * (t.val / 128) + 127 := by omega
  conv_lhs => rw [ht]
  exact accFold_last _ _

/-- Every element of the array is in the block some batch row's last point writes back. -/
theorem cover (c : Dev nD) (i : ((cfg0.win 3).arr.view.loc (c.tc : Thread nD τ)).2.ty.Idx) :
    ∃ t : Fin cfg0.N, (cfg0.win 3).flush t = true ∧ i ∈ ((cfg0.win 3).blk t).view.set := by
  have hi0 : (i 0).val < 2 := (i 0).isLt
  have hi1 : (i 1).val < 1 := (i 1).isLt
  have hi2 : (i 2).val < 1 := (i 2).isLt
  have hN : 128 * (i 0).val + 127 < cfg0.N := by rw [show cfg0.N = 256 from N_0]; omega
  refine ⟨⟨128 * (i 0).val + 127, hN⟩, (flush0_3 _).mpr (by show (128 * (i 0).val + 127) % 128 = 127; omega), ?_⟩
  obtain ⟨-, -, -, -, -, -, -, -, -, e0, e1, e2⟩ := Blocks.idx_facts ⟨128 * (i 0).val + 127, hN⟩
  show i ∈ ((View.whole main_v8).slice (win0_3.rect ⟨128 * (i 0).val + 127, hN⟩)).set
  rw [View.set_slice_whole, Rect.mem_set_unit]
  intro a
  match a with
  | ⟨0, _⟩ =>
    show win0_3.index ⟨128 * (i 0).val + 127, hN⟩ (0 : Fin 3) * 1 ≤ (i 0).val ∧ (i 0).val < win0_3.index ⟨128 * (i 0).val + 127, hN⟩ (0 : Fin 3) * 1 + 1
    rw [e0]; show (128 * (i 0).val + 127) / 128 * 1 ≤ (i 0).val ∧ (i 0).val < (128 * (i 0).val + 127) / 128 * 1 + 1; omega
  | ⟨1, _⟩ =>
    show win0_3.index ⟨128 * (i 0).val + 127, hN⟩ (1 : Fin 3) * 1 ≤ (i 1).val ∧ (i 1).val < win0_3.index ⟨128 * (i 0).val + 127, hN⟩ (1 : Fin 3) * 1 + 1
    rw [e1]; omega
  | ⟨2, _⟩ =>
    show win0_3.index ⟨128 * (i 0).val + 127, hN⟩ (2 : Fin 3) * 1 ≤ (i 2).val ∧ (i 2).val < win0_3.index ⟨128 * (i 0).val + 127, hN⟩ (2 : Fin 3) * 1 + 1
    rw [e2]; omega

/-- So the array ends holding the rows' sums. -/
theorem final (c : Dev nD) : (dats m 0 c).arrAt 3 cfg0.N = accArr m c :=
  (dats m 0 c).arrAt_eq_of_cover 3 (accArr m c) (flushed_eq m c) (cover c)

/-! ## The host operations after the call -/

/-- What the call leaves in the accumulator's array, -/
theorem left_acc (c : Dev nD) :
    Pipeline.withArrays (cfgs 0).spec c (V0 m c) (fun w => (dats m 0 c).arrAt w (cfgs 0).N) (Proc.devRef .tc main_v8) = accArr m c :=
  (Pipeline.withArrays_arr spec0 launch0.win.arr_inj c (V0 m c) (fun w => (dats m 0 c).arrAt w cfg0.N) 3).trans (final m c)

/-- and in the count's buffer, which it does not touch. -/
theorem left_count (c : Dev nD) :
    Pipeline.withArrays (cfgs 0).spec c (V0 m c) (fun w => (dats m 0 c).arrAt w (cfgs 0).N) (Proc.devRef .tc main_v7)
      = Mask.count (Mask.labels m c) :=
  (Pipeline.withArrays_of_ne spec0 c (V0 m c) (fun w => (dats m 0 c).arrAt w cfg0.N) main_v7
    (by exact (by decide : ∀ w, Pipeline.arrRef spec0 w ≠ main_v7))).trans (Mask.count_eq m c)

/-- The result buffer after the three operations that follow the call: the host sum of the array from 0, divided by the count. -/
theorem tail_value (c : Dev nD) :
    Pipeline.afterTail₀ cfgs (dats m) 0 (V0 m) [hostOps1] c main_v10
      = Host.divf (F := Ideal) (Host.reduceAdd (F := Ideal) (accArr m c) (constant (F := Ideal) S_ .f32 0x00000000#32)
          Facts₀.reducesTo_S2x1x1_S_d0_1_2 Facts₀.h_S_) (Mask.count (Mask.labels m c)) := by
  unfold Pipeline.afterTail₀
  show StableHlo.after hostOps1 _ (Proc.devRef .tc main_v10) = _
  after_results
  rw [left_acc, left_count]

/-! ## The result as the grouped loss -/

/-- An index of the [2, 1, 1] array is its batch row. -/
def rowEquiv : S2x1x1.Idx ≃ Fin 2 where
  toFun i := ⟨(i 0).val, (i 0).isLt⟩
  invFun b := ix3 b 0 0
  left_inv i := by
    funext a; apply Fin.ext
    match a with
    | ⟨0, _⟩ => rfl
    | ⟨1, _⟩ => have h : (i 1).val < 1 := (i 1).isLt; show 0 = (i 1).val; omega
    | ⟨2, _⟩ => have h : (i 2).val < 1 := (i 2).isLt; show 0 = (i 2).val; omega
  right_inv b := rfl

theorem sum_rows (f : S2x1x1.Idx → EReal) : ∑ i, f i = ∑ b : Fin 2, f (ix3 b 0 0) :=
  Fintype.sum_equiv rowEquiv f (fun b => f (ix3 b 0 0)) (fun i => congrArg f (rowEquiv.left_inv i).symm)

/-- Batch row b's element: the sum over its 128 groups of the groups' masked row terms. -/
theorem accArr_row (c : Dev nD) (b : Fin 2) :
    accArr m c (ix3 b 0 0) = ∑ j : Fin 128, ∑ r : Fin 16,
      klQuot (row (Blocks.student m c) b (pos j r)) (row (Blocks.teacher m c) b (pos j r)) * Blocks.maskFull m c (ix3 b (pos j r) 0) := by
  show ∑ j ∈ Finset.range 128, Acc.partN m c (128 * b.val + j) = _
  rw [Finset.sum_range]
  refine Finset.sum_congr rfl fun j _ => ?_
  rw [Acc.partN_of_lt m c (128 * b.val + j.val) (Blocks.pt b j).isLt]
  exact Blocks.part_eq m c b j

/-- The host's quotient of two scalars, read at the one index. -/
theorem hostDiv_apply (a b : FVec Ideal S_ .f32) (i : S_.Idx) : Host.divf (F := Ideal) a b i = Ideal.div (a i) (b i) := rfl

/-- The result buffer holds the grouped loss. -/
theorem result_value (c : Dev nD) :
    Pipeline.afterTail₀ cfgs (dats m) 0 (V0 m) [hostOps1] c main_v10
      = fun _ => lossGrouped (Blocks.maskFull m c) (Mask.count (Mask.labels m c) ix0) (Blocks.student m c) (Blocks.teacher m c) := by
  rw [tail_value]
  funext j0
  obtain rfl : j0 = ix0 := eq_ix0 j0
  rw [hostDiv_apply]
  dsimp only
  unfold lossGrouped
  refine congrArg (fun x => Ideal.div x (Mask.count (Mask.labels m c) ix0)) ?_
  simp only [Host.reduceAdd, Ideal.hostReduceAdd_def]
  rw [Ideal.hostReduceAdd_total Facts₀.reducesTo_S2x1x1_S_d0_1_2 (fun b => b.elim0) (accArr m c) _ ix0]
  rw [show (constant (F := Ideal) S_ .f32 0x00000000#32) (Shape.Idx.first Facts₀.h_S_) = (0 : EReal) from Ideal.ofBits_zero_f32,
    zero_add, sum_rows]
  exact Finset.sum_congr rfl fun b _ => accArr_row m c b

/-! ## The run, read -/

/-- Every weakly fair execution of the kernel program ends with the result buffer at the grouped loss and the
    arguments as launched. -/
theorem run : θ_run defs (onTc (τ := τ) (main (F := Ideal))) ⟨m, fun _ => 0, ρ⟩ fun r => ∀ c : Dev nD,
      r.2.mem ((c.tc : Thread nD τ).loc main_v10)
        = (fun _ => lossGrouped (Blocks.maskFull m c) (Mask.count (Mask.labels m c) ix0) (Blocks.student m c) (Blocks.teacher m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v10 (Pipeline.mem_restRefs_of main_v10 (by decide) (by decide))).trans (result_value m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c)))⟩)
    (run_main m ρ)

end Cert.KernelIdeal.Final

end
-- ==== Proof.FiniteTeacher.lean ====
/-
  What the precondition gives: the printed predicate is  all |logits| < +∞  and  all |teacher| < +∞.
  An extended real whose absolute value max (x, −x) is below +∞ is neither infinity, so it is a real.
  Read at any index of the teacher array, the second conjunct says that entry is a real.
-/
import proofs.«119242_j5231270166835_1_alg».proof.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.ValueIdx
import Idealize.ShloMosaic.Lib.Pipeline.Value

noncomputable section

namespace Distill

open Idealize.ShloMosaic

/-- The word 0x7F800000 denotes +∞. -/
theorem posInf_word : Ideal.ofBits .f32 0x7F800000#32 = ⊤ := by simp [Ideal.ofBits, Ideal.ieee]

/-- |x| < +∞ makes x a real. -/
theorem real_of_abs_lt_inf (x : EReal) (h : Ideal.cmp .olt (max x (-x)) (Ideal.ofBits .f32 0x7F800000#32) = 1#1) :
    ∃ r : ℝ, x = (r : EReal) := by
  rw [posInf_word] at h
  induction x using EReal.rec with
  | bot => simp [Ideal.cmp] at h
  | coe r => exact ⟨r, rfl⟩
  | top => simp [Ideal.cmp] at h

instance : Subsingleton Cert.Pre_finite_inputs.S_.Idx := ⟨fun a b => funext fun d => d.elim0⟩

/-- Under the precondition every teacher logit is a real. -/
theorem teacher_real [Cert.Pre_finite_inputs.Facts] (g : IVec Cert.Pre_finite_inputs.S2x2048 32)
    (X T : FVec Ideal Cert.Pre_finite_inputs.S2x2048x32000 .f32)
    (h : Cert.Pre_finite_inputs.fn (F := Ideal) g X T = fun _ => 1#1) (i : Cert.Pre_finite_inputs.S2x2048x32000.Idx) :
    ∃ r : ℝ, T i = (r : EReal) := by
  have h0 := congrFun h ValueIdx.ix0
  dsimp only [Cert.Pre_finite_inputs.fn] at h0
  obtain ⟨-, h2⟩ := IntOp.andi_eq_one.1 h0
  have e := Host.reduce_andi_all _ _ _ _ _ h2 i
  refine real_of_abs_lt_inf (T i) ?_
  rw [← e]
  show _ = FloatOps.cmpf .olt (FloatOps.hostAbsf (T i)) _
  rw [broadcastInDim_apply _ Cert.Pre_finite_inputs.Facts.bcast_S_S2x2048x32000 _ i (fun a => a.elim0) (fun a => a.elim0)]
  rfl

end Distill

end
-- ==== Proof.RefRun.lean ====
/-
  The reference program's run, read in stages. @main is a straight line of 56 host operations. The line is cut
  into five consecutive stretches; for each stretch, and for ANY contents of the device's buffers before it, the
  buffer the stretch is there to compute holds, after it, the staged value of the read module (the same
  operations, composed in the same order) provided the buffers the stretch reads held their staged values, and
  every buffer a later stretch reads is left as it was. The five facts compose along the concatenation of the
  stretches: the fold of the whole line is the fold of the last stretch from the fold of the ones before it.
-/
import proofs.«119242_j5231270166835_1_alg».proof.Proof.RefRead
import Idealize.ShloMosaic.Lib.StableHlo.Run

noncomputable section

namespace Cert.ReferenceIdeal.Staged

open Cert.ReferenceIdeal Cert.ReferenceIdeal.Gen Idealize.ShloMosaic Idealize.ShloMosaic.TcCoe Idealize.SL.Sem Idealize.ShloMosaic.StableHlo

variable {F : FTy → Type} [FloatOps F]

/-- Reading a typed reference's buffer back at the value's type undoes writing it there: the two transports
    along the reference's type equation cancel. -/
theorem ofBuf_toBuf {sg : RefSig} {Vl : EltTy → Type} {T : BufTy} (x : TRef sg T) (v : T.Contents Vl) :
    x.ofBuf (x.toBuf v) = v := by
  obtain ⟨r, h, h1, h2⟩ := x
  subst h
  rfl

/-! ## The line and its five stretches -/

/-- The first stretch: the mask `main_v3` of the labels that are not the ignored index, and the two sliced operands `main_v4`, `main_v5`. -/
abbrev c1 : List (HloOp τ sig (Elt F)) :=
  [ unary main_arg0 main_v0 ((extractStridedSlice S2x2047 ![0, 1] · slices_S2x2048_S2x2047_0_1) : (⟨S2x2048, .i32⟩ : BufTy).Contents (Elt F) → (⟨S2x2047, .i32⟩ : BufTy).Contents (Elt F)),
    nullary main_c (constantI S_ 32 4294967196#32),
    unary main_c main_v1 (broadcastInDim S2x2047 ![] bcast_S_S2x2047 : (⟨S_, .i32⟩ : BufTy).Contents (Elt F) → (⟨S2x2047, .i32⟩ : BufTy).Contents (Elt F)),
    binary main_v0 main_v1 main_v2 (cmpi .ne : (⟨S2x2047, .i32⟩ : BufTy).Contents (Elt F) → (⟨S2x2047, .i32⟩ : BufTy).Contents (Elt F) → (⟨S2x2047, .i1⟩ : BufTy).Contents (Elt F)),
    unary main_v2 main_v3 (uitofp .f32 : (⟨S2x2047, .i1⟩ : BufTy).Contents (Elt F) → (⟨S2x2047, .f32⟩ : BufTy).Contents (Elt F)),
    unary main_arg1 main_v4 ((extractStridedSlice S2x2047x32000 ![0, 0, 0] · slices_S2x2048x32000_S2x2047x32000_0_0_0) : (⟨S2x2048x32000, .f32⟩ : BufTy).Contents (Elt F) → (⟨S2x2047x32000, .f32⟩ : BufTy).Contents (Elt F)),
    unary main_arg2 main_v5 ((extractStridedSlice S2x2047x32000 ![0, 0, 0] · slices_S2x2048x32000_S2x2047x32000_0_0_0) : (⟨S2x2048x32000, .f32⟩ : BufTy).Contents (Elt F) → (⟨S2x2047x32000, .f32⟩ : BufTy).Contents (Elt F)) ]

/-- The second stretch: where the first operand is infinite, `main_v6`. -/
abbrev c2 : List (HloOp τ sig (Elt F)) :=
  [ TRef.unary (TRef.of (T := ⟨S2x2047x32000, .f32⟩) main_v4) (TRef.of (T := ⟨S2x2047x32000, .f32⟩) main_call0_v0) Host.absf,
    TRef.nullary (TRef.of (T := ⟨S_, .f32⟩) main_call0_cst) (constant S_ .f32 0x7F800000#32),
    TRef.unary (TRef.of (T := ⟨S_, .f32⟩) main_call0_cst) (TRef.of (T := ⟨S2x2047x32000, .f32⟩) main_call0_v1) (broadcastInDim S2x2047x32000 ![] bcast_S_S2x2047x32000),
    TRef.binary (TRef.of (T := ⟨S2x2047x32000, .f32⟩) main_call0_v0) (TRef.of (T := ⟨S2x2047x32000, .f32⟩) main_call0_v1) (TRef.of (T := ⟨S2x2047x32000, .i1⟩) main_v6) (cmpf .oeq) ]

/-- The third stretch: the row-wise log-softmax of the first operand, `main_v7`. -/
abbrev c3 : List (HloOp τ sig (Elt F)) :=
  [ TRef.nullary (TRef.of (T := ⟨S_, .f32⟩) main_call1_cst) (constant S_ .f32 0xFF800000#32),
    TRef.binary (TRef.of (T := ⟨S2x2047x32000, .f32⟩) main_v4) (TRef.of (T := ⟨S_, .f32⟩) main_call1_cst) (TRef.of (T := ⟨S2x2047, .f32⟩) main_call1_v0) (fun x v => Host.reduce FloatOps.maximumf x v reducesTo_S2x2047x32000_S2x2047_d2 h_S_),
    TRef.nullary (TRef.of (T := ⟨S_, .f32⟩) main_call1_cst_0) (constant S_ .f32 0xFF800000#32),
    TRef.unary (TRef.of (T := ⟨S_, .f32⟩) main_call1_cst_0) (TRef.of (T := ⟨S2x2047, .f32⟩) main_call1_v1) (broadcastInDim S2x2047 ![] bcast_S_S2x2047),
    TRef.binary (TRef.of (T := ⟨S2x2047, .f32⟩) main_call1_v1) (TRef.of (T := ⟨S2x2047, .f32⟩) main_call1_v0) (TRef.of (T := ⟨S2x2047, .f32⟩) main_call1_v2) maximumf,
    TRef.unary (TRef.of (T := ⟨S2x2047, .f32⟩) main_call1_v2) (TRef.of (T := ⟨S2x2047x1, .f32⟩) main_call1_v3) (broadcastInDim S2x2047x1 ![0, 1] bcast_S2x2047_S2x2047x1_0_1),
    TRef.unary (TRef.of (T := ⟨S2x2047x1, .f32⟩) main_call1_v3) (TRef.of (T := ⟨S2x2047x32000, .f32⟩) main_call1_v4) (broadcastInDim S2x2047x32000 ![0, 1, 2] bcast_S2x2047x1_S2x2047x32000_0_1_2),
    TRef.binary (TRef.of (T := ⟨S2x2047x32000, .f32⟩) main_v4) (TRef.of (T := ⟨S2x2047x32000, .f32⟩) main_call1_v4) (TRef.of (T := ⟨S2x2047x32000, .f32⟩) main_call1_v5) subf,
    TRef.unary (TRef.of (T := ⟨S2x2047x32000, .f32⟩) main_call1_v5) (TRef.of (T := ⟨S2x2047x32000, .f32⟩) main_call1_v6) Host.exp,
    TRef.nullary (TRef.of (T := ⟨S_, .f32⟩) main_call1_cst_1) (constant S_ .f32 0x00000000#32),
    TRef.binary (TRef.of (T := ⟨S2x2047x32000, .f32⟩) main_call1_v6) (TRef.of (T := ⟨S_, .f32⟩) main_call1_cst_1) (TRef.of (T := ⟨S2x2047, .f32⟩) main_call1_v7) (fun x v => Host.reduceAdd x v reducesTo_S2x2047x32000_S2x2047_d2 h_S_),
    TRef.unary (TRef.of (T := ⟨S2x2047, .f32⟩) main_call1_v7) (TRef.of (T := ⟨S2x2047x1, .f32⟩) main_call1_v8) (broadcastInDim S2x2047x1 ![0, 1] bcast_S2x2047_S2x2047x1_0_1),
    TRef.unary (TRef.of (T := ⟨S2x2047x1, .f32⟩) main_call1_v8) (TRef.of (T := ⟨S2x2047x1, .f32⟩) main_call1_v9) Host.log,
    TRef.unary (TRef.of (T := ⟨S2x2047x1, .f32⟩) main_call1_v9) (TRef.of (T := ⟨S2x2047x32000, .f32⟩) main_call1_v10) (broadcastInDim S2x2047x32000 ![0, 1, 2] bcast_S2x2047x1_S2x2047x32000_0_1_2),
    TRef.binary (TRef.of (T := ⟨S2x2047x32000, .f32⟩) main_call1_v5) (TRef.of (T := ⟨S2x2047x32000, .f32⟩) main_call1_v10) (TRef.of (T := ⟨S2x2047x32000, .f32⟩) main_v7) subf ]

/-- The fourth stretch: the row-wise log-softmax of the second operand, `main_v8`. -/
abbrev c4 : List (HloOp τ sig (Elt F)) :=
  [ TRef.nullary (TRef.of (T := ⟨S_, .f32⟩) main_call2_cst) (constant S_ .f32 0xFF800000#32),
    TRef.binary (TRef.of (T := ⟨S2x2047x32000, .f32⟩) main_v5) (TRef.of (T := ⟨S_, .f32⟩) main_call2_cst) (TRef.of (T := ⟨S2x2047, .f32⟩) main_call2_v0) (fun x v => Host.reduce FloatOps.maximumf x v reducesTo_S2x2047x32000_S2x2047_d2 h_S_),
    TRef.nullary (TRef.of (T := ⟨S_, .f32⟩) main_call2_cst_0) (constant S_ .f32 0xFF800000#32),
    TRef.unary (TRef.of (T := ⟨S_, .f32⟩) main_call2_cst_0) (TRef.of (T := ⟨S2x2047, .f32⟩) main_call2_v1) (broadcastInDim S2x2047 ![] bcast_S_S2x2047),
    TRef.binary (TRef.of (T := ⟨S2x2047, .f32⟩) main_call2_v1) (TRef.of (T := ⟨S2x2047, .f32⟩) main_call2_v0) (TRef.of (T := ⟨S2x2047, .f32⟩) main_call2_v2) maximumf,
    TRef.unary (TRef.of (T := ⟨S2x2047, .f32⟩) main_call2_v2) (TRef.of (T := ⟨S2x2047x1, .f32⟩) main_call2_v3) (broadcastInDim S2x2047x1 ![0, 1] bcast_S2x2047_S2x2047x1_0_1),
    TRef.unary (TRef.of (T := ⟨S2x2047x1, .f32⟩) main_call2_v3) (TRef.of (T := ⟨S2x2047x32000, .f32⟩) main_call2_v4) (broadcastInDim S2x2047x32000 ![0, 1, 2] bcast_S2x2047x1_S2x2047x32000_0_1_2),
    TRef.binary (TRef.of (T := ⟨S2x2047x32000, .f32⟩) main_v5) (TRef.of (T := ⟨S2x2047x32000, .f32⟩) main_call2_v4) (TRef.of (T := ⟨S2x2047x32000, .f32⟩) main_call2_v5) subf,
    TRef.unary (TRef.of (T := ⟨S2x2047x32000, .f32⟩) main_call2_v5) (TRef.of (T := ⟨S2x2047x32000, .f32⟩) main_call2_v6) Host.exp,
    TRef.nullary (TRef.of (T := ⟨S_, .f32⟩) main_call2_cst_1) (constant S_ .f32 0x00000000#32),
    TRef.binary (TRef.of (T := ⟨S2x2047x32000, .f32⟩) main_call2_v6) (TRef.of (T := ⟨S_, .f32⟩) main_call2_cst_1) (TRef.of (T := ⟨S2x2047, .f32⟩) main_call2_v7) (fun x v => Host.reduceAdd x v reducesTo_S2x2047x32000_S2x2047_d2 h_S_),
    TRef.unary (TRef.of (T := ⟨S2x2047, .f32⟩) main_call2_v7) (TRef.of (T := ⟨S2x2047x1, .f32⟩) main_call2_v8) (broadcastInDim S2x2047x1 ![0, 1] bcast_S2x2047_S2x2047x1_0_1),
    TRef.unary (TRef.of (T := ⟨S2x2047x1, .f32⟩) main_call2_v8) (TRef.of (T := ⟨S2x2047x1, .f32⟩) main_call2_v9) Host.log,
    TRef.unary (TRef.of (T := ⟨S2x2047x1, .f32⟩) main_call2_v9) (TRef.of (T := ⟨S2x2047x32000, .f32⟩) main_call2_v10) (broadcastInDim S2x2047x32000 ![0, 1, 2] bcast_S2x2047x1_S2x2047x32000_0_1_2),
    TRef.binary (TRef.of (T := ⟨S2x2047x32000, .f32⟩) main_call2_v5) (TRef.of (T := ⟨S2x2047x32000, .f32⟩) main_call2_v10) (TRef.of (T := ⟨S2x2047x32000, .f32⟩) main_v8) subf ]

/-- The last stretch: the masked row sums of `exp v8 * (v8 - v7)`, their mean over the kept rows, `main_v17`. -/
abbrev c5 : List (HloOp τ sig (Elt F)) :=
  [ unary main_v8 main_v9 (Host.exp : (⟨S2x2047x32000, .f32⟩ : BufTy).Contents (Elt F) → (⟨S2x2047x32000, .f32⟩ : BufTy).Contents (Elt F)),
    binary main_v8 main_v7 main_v10 (subf : (⟨S2x2047x32000, .f32⟩ : BufTy).Contents (Elt F) → (⟨S2x2047x32000, .f32⟩ : BufTy).Contents (Elt F) → (⟨S2x2047x32000, .f32⟩ : BufTy).Contents (Elt F)),
    binary main_v9 main_v10 main_v11 (mulf : (⟨S2x2047x32000, .f32⟩ : BufTy).Contents (Elt F) → (⟨S2x2047x32000, .f32⟩ : BufTy).Contents (Elt F) → (⟨S2x2047x32000, .f32⟩ : BufTy).Contents (Elt F)),
    nullary main_cst (constant S_ .f32 0x00000000#32),
    TRef.unary (TRef.of (T := ⟨S_, .f32⟩) main_cst) (TRef.of (T := ⟨S_, .f32⟩) main_call3_v0) id,
    TRef.unary (TRef.of (T := ⟨S_, .f32⟩) main_call3_v0) (TRef.of (T := ⟨S2x2047x32000, .f32⟩) main_call3_v1) (broadcastInDim S2x2047x32000 ![] bcast_S_S2x2047x32000),
    TRef.ternary (TRef.of (T := ⟨S2x2047x32000, .i1⟩) main_v6) (TRef.of (T := ⟨S2x2047x32000, .f32⟩) main_call3_v1) (TRef.of (T := ⟨S2x2047x32000, .f32⟩) main_v11) (TRef.of (T := ⟨S2x2047x32000, .f32⟩) main_v12) select,
    nullary main_cst_0 (constant S_ .f32 0x00000000#32),
    binary main_v12 main_cst_0 main_v13 ((fun x v => Host.reduceAdd x v reducesTo_S2x2047x32000_S2x2047_d2 h_S_) : (⟨S2x2047x32000, .f32⟩ : BufTy).Contents (Elt F) → (⟨S_, .f32⟩ : BufTy).Contents (Elt F) → (⟨S2x2047, .f32⟩ : BufTy).Contents (Elt F)),
    binary main_v13 main_v3 main_v14 (mulf : (⟨S2x2047, .f32⟩ : BufTy).Contents (Elt F) → (⟨S2x2047, .f32⟩ : BufTy).Contents (Elt F) → (⟨S2x2047, .f32⟩ : BufTy).Contents (Elt F)),
    nullary main_cst_1 (constant S_ .f32 0x00000000#32),
    binary main_v14 main_cst_1 main_v15 ((fun x v => Host.reduceAdd x v reducesTo_S2x2047_S_d0_1 h_S_) : (⟨S2x2047, .f32⟩ : BufTy).Contents (Elt F) → (⟨S_, .f32⟩ : BufTy).Contents (Elt F) → (⟨S_, .f32⟩ : BufTy).Contents (Elt F)),
    nullary main_cst_2 (constant S_ .f32 0x00000000#32),
    binary main_v3 main_cst_2 main_v16 ((fun x v => Host.reduceAdd x v reducesTo_S2x2047_S_d0_1 h_S_) : (⟨S2x2047, .f32⟩ : BufTy).Contents (Elt F) → (⟨S_, .f32⟩ : BufTy).Contents (Elt F) → (⟨S_, .f32⟩ : BufTy).Contents (Elt F)),
    binary main_v15 main_v16 main_v17 (Host.divf : (⟨S_, .f32⟩ : BufTy).Contents (Elt F) → (⟨S_, .f32⟩ : BufTy).Contents (Elt F) → (⟨S_, .f32⟩ : BufTy).Contents (Elt F)) ]

/-- @main's 56 operations, in order (a called function's operations stand in its call's place). -/
abbrev ops : List (HloOp τ sig (Elt F)) :=
  [ unary main_arg0 main_v0 ((extractStridedSlice S2x2047 ![0, 1] · slices_S2x2048_S2x2047_0_1) : (⟨S2x2048, .i32⟩ : BufTy).Contents (Elt F) → (⟨S2x2047, .i32⟩ : BufTy).Contents (Elt F)),
    nullary main_c (constantI S_ 32 4294967196#32),
    unary main_c main_v1 (broadcastInDim S2x2047 ![] bcast_S_S2x2047 : (⟨S_, .i32⟩ : BufTy).Contents (Elt F) → (⟨S2x2047, .i32⟩ : BufTy).Contents (Elt F)),
    binary main_v0 main_v1 main_v2 (cmpi .ne : (⟨S2x2047, .i32⟩ : BufTy).Contents (Elt F) → (⟨S2x2047, .i32⟩ : BufTy).Contents (Elt F) → (⟨S2x2047, .i1⟩ : BufTy).Contents (Elt F)),
    unary main_v2 main_v3 (uitofp .f32 : (⟨S2x2047, .i1⟩ : BufTy).Contents (Elt F) → (⟨S2x2047, .f32⟩ : BufTy).Contents (Elt F)),
    unary main_arg1 main_v4 ((extractStridedSlice S2x2047x32000 ![0, 0, 0] · slices_S2x2048x32000_S2x2047x32000_0_0_0) : (⟨S2x2048x32000, .f32⟩ : BufTy).Contents (Elt F) → (⟨S2x2047x32000, .f32⟩ : BufTy).Contents (Elt F)),
    unary main_arg2 main_v5 ((extractStridedSlice S2x2047x32000 ![0, 0, 0] · slices_S2x2048x32000_S2x2047x32000_0_0_0) : (⟨S2x2048x32000, .f32⟩ : BufTy).Contents (Elt F) → (⟨S2x2047x32000, .f32⟩ : BufTy).Contents (Elt F)),
    TRef.unary (TRef.of (T := ⟨S2x2047x32000, .f32⟩) main_v4) (TRef.of (T := ⟨S2x2047x32000, .f32⟩) main_call0_v0) Host.absf,
    TRef.nullary (TRef.of (T := ⟨S_, .f32⟩) main_call0_cst) (constant S_ .f32 0x7F800000#32),
    TRef.unary (TRef.of (T := ⟨S_, .f32⟩) main_call0_cst) (TRef.of (T := ⟨S2x2047x32000, .f32⟩) main_call0_v1) (broadcastInDim S2x2047x32000 ![] bcast_S_S2x2047x32000),
    TRef.binary (TRef.of (T := ⟨S2x2047x32000, .f32⟩) main_call0_v0) (TRef.of (T := ⟨S2x2047x32000, .f32⟩) main_call0_v1) (TRef.of (T := ⟨S2x2047x32000, .i1⟩) main_v6) (cmpf .oeq),
    TRef.nullary (TRef.of (T := ⟨S_, .f32⟩) main_call1_cst) (constant S_ .f32 0xFF800000#32),
    TRef.binary (TRef.of (T := ⟨S2x2047x32000, .f32⟩) main_v4) (TRef.of (T := ⟨S_, .f32⟩) main_call1_cst) (TRef.of (T := ⟨S2x2047, .f32⟩) main_call1_v0) (fun x v => Host.reduce FloatOps.maximumf x v reducesTo_S2x2047x32000_S2x2047_d2 h_S_),
    TRef.nullary (TRef.of (T := ⟨S_, .f32⟩) main_call1_cst_0) (constant S_ .f32 0xFF800000#32),
    TRef.unary (TRef.of (T := ⟨S_, .f32⟩) main_call1_cst_0) (TRef.of (T := ⟨S2x2047, .f32⟩) main_call1_v1) (broadcastInDim S2x2047 ![] bcast_S_S2x2047),
    TRef.binary (TRef.of (T := ⟨S2x2047, .f32⟩) main_call1_v1) (TRef.of (T := ⟨S2x2047, .f32⟩) main_call1_v0) (TRef.of (T := ⟨S2x2047, .f32⟩) main_call1_v2) maximumf,
    TRef.unary (TRef.of (T := ⟨S2x2047, .f32⟩) main_call1_v2) (TRef.of (T := ⟨S2x2047x1, .f32⟩) main_call1_v3) (broadcastInDim S2x2047x1 ![0, 1] bcast_S2x2047_S2x2047x1_0_1),
    TRef.unary (TRef.of (T := ⟨S2x2047x1, .f32⟩) main_call1_v3) (TRef.of (T := ⟨S2x2047x32000, .f32⟩) main_call1_v4) (broadcastInDim S2x2047x32000 ![0, 1, 2] bcast_S2x2047x1_S2x2047x32000_0_1_2),
    TRef.binary (TRef.of (T := ⟨S2x2047x32000, .f32⟩) main_v4) (TRef.of (T := ⟨S2x2047x32000, .f32⟩) main_call1_v4) (TRef.of (T := ⟨S2x2047x32000, .f32⟩) main_call1_v5) subf,
    TRef.unary (TRef.of (T := ⟨S2x2047x32000, .f32⟩) main_call1_v5) (TRef.of (T := ⟨S2x2047x32000, .f32⟩) main_call1_v6) Host.exp,
    TRef.nullary (TRef.of (T := ⟨S_, .f32⟩) main_call1_cst_1) (constant S_ .f32 0x00000000#32),
    TRef.binary (TRef.of (T := ⟨S2x2047x32000, .f32⟩) main_call1_v6) (TRef.of (T := ⟨S_, .f32⟩) main_call1_cst_1) (TRef.of (T := ⟨S2x2047, .f32⟩) main_call1_v7) (fun x v => Host.reduceAdd x v reducesTo_S2x2047x32000_S2x2047_d2 h_S_),
    TRef.unary (TRef.of (T := ⟨S2x2047, .f32⟩) main_call1_v7) (TRef.of (T := ⟨S2x2047x1, .f32⟩) main_call1_v8) (broadcastInDim S2x2047x1 ![0, 1] bcast_S2x2047_S2x2047x1_0_1),
    TRef.unary (TRef.of (T := ⟨S2x2047x1, .f32⟩) main_call1_v8) (TRef.of (T := ⟨S2x2047x1, .f32⟩) main_call1_v9) Host.log,
    TRef.unary (TRef.of (T := ⟨S2x2047x1, .f32⟩) main_call1_v9) (TRef.of (T := ⟨S2x2047x32000, .f32⟩) main_call1_v10) (broadcastInDim S2x2047x32000 ![0, 1, 2] bcast_S2x2047x1_S2x2047x32000_0_1_2),
    TRef.binary (TRef.of (T := ⟨S2x2047x32000, .f32⟩) main_call1_v5) (TRef.of (T := ⟨S2x2047x32000, .f32⟩) main_call1_v10) (TRef.of (T := ⟨S2x2047x32000, .f32⟩) main_v7) subf,
    TRef.nullary (TRef.of (T := ⟨S_, .f32⟩) main_call2_cst) (constant S_ .f32 0xFF800000#32),
    TRef.binary (TRef.of (T := ⟨S2x2047x32000, .f32⟩) main_v5) (TRef.of (T := ⟨S_, .f32⟩) main_call2_cst) (TRef.of (T := ⟨S2x2047, .f32⟩) main_call2_v0) (fun x v => Host.reduce FloatOps.maximumf x v reducesTo_S2x2047x32000_S2x2047_d2 h_S_),
    TRef.nullary (TRef.of (T := ⟨S_, .f32⟩) main_call2_cst_0) (constant S_ .f32 0xFF800000#32),
    TRef.unary (TRef.of (T := ⟨S_, .f32⟩) main_call2_cst_0) (TRef.of (T := ⟨S2x2047, .f32⟩) main_call2_v1) (broadcastInDim S2x2047 ![] bcast_S_S2x2047),
    TRef.binary (TRef.of (T := ⟨S2x2047, .f32⟩) main_call2_v1) (TRef.of (T := ⟨S2x2047, .f32⟩) main_call2_v0) (TRef.of (T := ⟨S2x2047, .f32⟩) main_call2_v2) maximumf,
    TRef.unary (TRef.of (T := ⟨S2x2047, .f32⟩) main_call2_v2) (TRef.of (T := ⟨S2x2047x1, .f32⟩) main_call2_v3) (broadcastInDim S2x2047x1 ![0, 1] bcast_S2x2047_S2x2047x1_0_1),
    TRef.unary (TRef.of (T := ⟨S2x2047x1, .f32⟩) main_call2_v3) (TRef.of (T := ⟨S2x2047x32000, .f32⟩) main_call2_v4) (broadcastInDim S2x2047x32000 ![0, 1, 2] bcast_S2x2047x1_S2x2047x32000_0_1_2),
    TRef.binary (TRef.of (T := ⟨S2x2047x32000, .f32⟩) main_v5) (TRef.of (T := ⟨S2x2047x32000, .f32⟩) main_call2_v4) (TRef.of (T := ⟨S2x2047x32000, .f32⟩) main_call2_v5) subf,
    TRef.unary (TRef.of (T := ⟨S2x2047x32000, .f32⟩) main_call2_v5) (TRef.of (T := ⟨S2x2047x32000, .f32⟩) main_call2_v6) Host.exp,
    TRef.nullary (TRef.of (T := ⟨S_, .f32⟩) main_call2_cst_1) (constant S_ .f32 0x00000000#32),
    TRef.binary (TRef.of (T := ⟨S2x2047x32000, .f32⟩) main_call2_v6) (TRef.of (T := ⟨S_, .f32⟩) main_call2_cst_1) (TRef.of (T := ⟨S2x2047, .f32⟩) main_call2_v7) (fun x v => Host.reduceAdd x v reducesTo_S2x2047x32000_S2x2047_d2 h_S_),
    TRef.unary (TRef.of (T := ⟨S2x2047, .f32⟩) main_call2_v7) (TRef.of (T := ⟨S2x2047x1, .f32⟩) main_call2_v8) (broadcastInDim S2x2047x1 ![0, 1] bcast_S2x2047_S2x2047x1_0_1),
    TRef.unary (TRef.of (T := ⟨S2x2047x1, .f32⟩) main_call2_v8) (TRef.of (T := ⟨S2x2047x1, .f32⟩) main_call2_v9) Host.log,
    TRef.unary (TRef.of (T := ⟨S2x2047x1, .f32⟩) main_call2_v9) (TRef.of (T := ⟨S2x2047x32000, .f32⟩) main_call2_v10) (broadcastInDim S2x2047x32000 ![0, 1, 2] bcast_S2x2047x1_S2x2047x32000_0_1_2),
    TRef.binary (TRef.of (T := ⟨S2x2047x32000, .f32⟩) main_call2_v5) (TRef.of (T := ⟨S2x2047x32000, .f32⟩) main_call2_v10) (TRef.of (T := ⟨S2x2047x32000, .f32⟩) main_v8) subf,
    unary main_v8 main_v9 (Host.exp : (⟨S2x2047x32000, .f32⟩ : BufTy).Contents (Elt F) → (⟨S2x2047x32000, .f32⟩ : BufTy).Contents (Elt F)),
    binary main_v8 main_v7 main_v10 (subf : (⟨S2x2047x32000, .f32⟩ : BufTy).Contents (Elt F) → (⟨S2x2047x32000, .f32⟩ : BufTy).Contents (Elt F) → (⟨S2x2047x32000, .f32⟩ : BufTy).Contents (Elt F)),
    binary main_v9 main_v10 main_v11 (mulf : (⟨S2x2047x32000, .f32⟩ : BufTy).Contents (Elt F) → (⟨S2x2047x32000, .f32⟩ : BufTy).Contents (Elt F) → (⟨S2x2047x32000, .f32⟩ : BufTy).Contents (Elt F)),
    nullary main_cst (constant S_ .f32 0x00000000#32),
    TRef.unary (TRef.of (T := ⟨S_, .f32⟩) main_cst) (TRef.of (T := ⟨S_, .f32⟩) main_call3_v0) id,
    TRef.unary (TRef.of (T := ⟨S_, .f32⟩) main_call3_v0) (TRef.of (T := ⟨S2x2047x32000, .f32⟩) main_call3_v1) (broadcastInDim S2x2047x32000 ![] bcast_S_S2x2047x32000),
    TRef.ternary (TRef.of (T := ⟨S2x2047x32000, .i1⟩) main_v6) (TRef.of (T := ⟨S2x2047x32000, .f32⟩) main_call3_v1) (TRef.of (T := ⟨S2x2047x32000, .f32⟩) main_v11) (TRef.of (T := ⟨S2x2047x32000, .f32⟩) main_v12) select,
    nullary main_cst_0 (constant S_ .f32 0x00000000#32),
    binary main_v12 main_cst_0 main_v13 ((fun x v => Host.reduceAdd x v reducesTo_S2x2047x32000_S2x2047_d2 h_S_) : (⟨S2x2047x32000, .f32⟩ : BufTy).Contents (Elt F) → (⟨S_, .f32⟩ : BufTy).Contents (Elt F) → (⟨S2x2047, .f32⟩ : BufTy).Contents (Elt F)),
    binary main_v13 main_v3 main_v14 (mulf : (⟨S2x2047, .f32⟩ : BufTy).Contents (Elt F) → (⟨S2x2047, .f32⟩ : BufTy).Contents (Elt F) → (⟨S2x2047, .f32⟩ : BufTy).Contents (Elt F)),
    nullary main_cst_1 (constant S_ .f32 0x00000000#32),
    binary main_v14 main_cst_1 main_v15 ((fun x v => Host.reduceAdd x v reducesTo_S2x2047_S_d0_1 h_S_) : (⟨S2x2047, .f32⟩ : BufTy).Contents (Elt F) → (⟨S_, .f32⟩ : BufTy).Contents (Elt F) → (⟨S_, .f32⟩ : BufTy).Contents (Elt F)),
    nullary main_cst_2 (constant S_ .f32 0x00000000#32),
    binary main_v3 main_cst_2 main_v16 ((fun x v => Host.reduceAdd x v reducesTo_S2x2047_S_d0_1 h_S_) : (⟨S2x2047, .f32⟩ : BufTy).Contents (Elt F) → (⟨S_, .f32⟩ : BufTy).Contents (Elt F) → (⟨S_, .f32⟩ : BufTy).Contents (Elt F)),
    binary main_v15 main_v16 main_v17 (Host.divf : (⟨S_, .f32⟩ : BufTy).Contents (Elt F) → (⟨S_, .f32⟩ : BufTy).Contents (Elt F) → (⟨S_, .f32⟩ : BufTy).Contents (Elt F)) ]

/-- The line is its five stretches, one after the other. -/
theorem ops_eq : (ops : List (HloOp τ sig (Elt F))) = c1 ++ (c2 ++ (c3 ++ (c4 ++ c5))) := rfl

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., nullary_bufs_sub .., unary_bufs_sub .., binary_bufs_sub .., unary_bufs_sub .., unary_bufs_sub .., unary_bufs_sub .., unary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., binary_bufs_sub .., binary_bufs_sub .., nullary_bufs_sub .., unary_bufs_sub .., unary_bufs_sub .., ternary_bufs_sub .., nullary_bufs_sub .., binary_bufs_sub .., binary_bufs_sub .., nullary_bufs_sub .., binary_bufs_sub .., nullary_bufs_sub .., binary_bufs_sub .., binary_bufs_sub ..⟩

/-! ## First stretch -/

theorem c1_v3 (W : Valuation τ sig (Elt F)) :
    after c1 W (Proc.devRef .tc main_v3) = ReadP.val_main_v3 (F := F) (W (Proc.devRef .tc main_arg0)) := by
  after_results_simp <;> rfl
theorem c1_v4 (W : Valuation τ sig (Elt F)) :
    after c1 W (Proc.devRef .tc main_v4) = ReadP.val_main_v4 (F := F) (W (Proc.devRef .tc main_arg1)) := by
  after_results_simp <;> rfl
theorem c1_v5 (W : Valuation τ sig (Elt F)) :
    after c1 W (Proc.devRef .tc main_v5) = ReadP.val_main_v5 (F := F) (W (Proc.devRef .tc main_arg2)) := by
  after_results_simp <;> rfl
theorem c1_fr_arg0 (W : Valuation τ sig (Elt F)) :
    after c1 W (Proc.devRef .tc main_arg0) = W (Proc.devRef .tc main_arg0) := by
  after_results_simp
theorem c1_fr_arg1 (W : Valuation τ sig (Elt F)) :
    after c1 W (Proc.devRef .tc main_arg1) = W (Proc.devRef .tc main_arg1) := by
  after_results_simp
theorem c1_fr_arg2 (W : Valuation τ sig (Elt F)) :
    after c1 W (Proc.devRef .tc main_arg2) = W (Proc.devRef .tc main_arg2) := by
  after_results_simp

/-! ## Second stretch -/

theorem c2_v6 (W : Valuation τ sig (Elt F)) (x1 : (⟨S2x2048x32000, .f32⟩ : BufTy).Contents (Elt F))
    (h4 : W (Proc.devRef .tc main_v4) = ReadP.val_main_v4 (F := F) x1) :
    after c2 W (Proc.devRef .tc main_v6) = ReadP.val_main_v6 (F := F) x1 := by
  after_results_simp
  simp only [ofBuf_toBuf]
  rw [h4]
  rfl
theorem c2_fr_v3 (W : Valuation τ sig (Elt F)) :
    after c2 W (Proc.devRef .tc main_v3) = W (Proc.devRef .tc main_v3) := by
  after_results_simp
theorem c2_fr_v4 (W : Valuation τ sig (Elt F)) :
    after c2 W (Proc.devRef .tc main_v4) = W (Proc.devRef .tc main_v4) := by
  after_results_simp
theorem c2_fr_v5 (W : Valuation τ sig (Elt F)) :
    after c2 W (Proc.devRef .tc main_v5) = W (Proc.devRef .tc main_v5) := by
  after_results_simp
theorem c2_fr_arg0 (W : Valuation τ sig (Elt F)) :
    after c2 W (Proc.devRef .tc main_arg0) = W (Proc.devRef .tc main_arg0) := by
  after_results_simp
theorem c2_fr_arg1 (W : Valuation τ sig (Elt F)) :
    after c2 W (Proc.devRef .tc main_arg1) = W (Proc.devRef .tc main_arg1) := by
  after_results_simp
theorem c2_fr_arg2 (W : Valuation τ sig (Elt F)) :
    after c2 W (Proc.devRef .tc main_arg2) = W (Proc.devRef .tc main_arg2) := by
  after_results_simp

/-! ## Third stretch -/

theorem c3_v7 (W : Valuation τ sig (Elt F)) (x1 : (⟨S2x2048x32000, .f32⟩ : BufTy).Contents (Elt F))
    (h4 : W (Proc.devRef .tc main_v4) = ReadP.val_main_v4 (F := F) x1) :
    after c3 W (Proc.devRef .tc main_v7) = ReadP.val_main_v7 (F := F) x1 := by
  after_results_simp
  simp only [ofBuf_toBuf]
  rw [h4]
  rfl
theorem c3_fr_v3 (W : Valuation τ sig (Elt F)) :
    after c3 W (Proc.devRef .tc main_v3) = W (Proc.devRef .tc main_v3) := by
  after_results_simp
theorem c3_fr_v5 (W : Valuation τ sig (Elt F)) :
    after c3 W (Proc.devRef .tc main_v5) = W (Proc.devRef .tc main_v5) := by
  after_results_simp
theorem c3_fr_v6 (W : Valuation τ sig (Elt F)) :
    after c3 W (Proc.devRef .tc main_v6) = W (Proc.devRef .tc main_v6) := by
  after_results_simp
theorem c3_fr_arg0 (W : Valuation τ sig (Elt F)) :
    after c3 W (Proc.devRef .tc main_arg0) = W (Proc.devRef .tc main_arg0) := by
  after_results_simp
theorem c3_fr_arg1 (W : Valuation τ sig (Elt F)) :
    after c3 W (Proc.devRef .tc main_arg1) = W (Proc.devRef .tc main_arg1) := by
  after_results_simp
theorem c3_fr_arg2 (W : Valuation τ sig (Elt F)) :
    after c3 W (Proc.devRef .tc main_arg2) = W (Proc.devRef .tc main_arg2) := by
  after_results_simp

/-! ## Fourth stretch -/

theorem c4_v8 (W : Valuation τ sig (Elt F)) (x2 : (⟨S2x2048x32000, .f32⟩ : BufTy).Contents (Elt F))
    (h5 : W (Proc.devRef .tc main_v5) = ReadP.val_main_v5 (F := F) x2) :
    after c4 W (Proc.devRef .tc main_v8) = ReadP.val_main_v8 (F := F) x2 := by
  after_results_simp
  simp only [ofBuf_toBuf]
  rw [h5]
  rfl
theorem c4_fr_v3 (W : Valuation τ sig (Elt F)) :
    after c4 W (Proc.devRef .tc main_v3) = W (Proc.devRef .tc main_v3) := by
  after_results_simp
theorem c4_fr_v6 (W : Valuation τ sig (Elt F)) :
    after c4 W (Proc.devRef .tc main_v6) = W (Proc.devRef .tc main_v6) := by
  after_results_simp
theorem c4_fr_v7 (W : Valuation τ sig (Elt F)) :
    after c4 W (Proc.devRef .tc main_v7) = W (Proc.devRef .tc main_v7) := by
  after_results_simp
theorem c4_fr_arg0 (W : Valuation τ sig (Elt F)) :
    after c4 W (Proc.devRef .tc main_arg0) = W (Proc.devRef .tc main_arg0) := by
  after_results_simp
theorem c4_fr_arg1 (W : Valuation τ sig (Elt F)) :
    after c4 W (Proc.devRef .tc main_arg1) = W (Proc.devRef .tc main_arg1) := by
  after_results_simp
theorem c4_fr_arg2 (W : Valuation τ sig (Elt F)) :
    after c4 W (Proc.devRef .tc main_arg2) = W (Proc.devRef .tc main_arg2) := by
  after_results_simp

/-! ## Last stretch -/

theorem c5_v17 (W : Valuation τ sig (Elt F)) (x0 : (⟨S2x2048, .i32⟩ : BufTy).Contents (Elt F)) (x1 x2 : (⟨S2x2048x32000, .f32⟩ : BufTy).Contents (Elt F))
    (h8 : W (Proc.devRef .tc main_v8) = ReadP.val_main_v8 (F := F) x2)
    (h7 : W (Proc.devRef .tc main_v7) = ReadP.val_main_v7 (F := F) x1)
    (h6 : W (Proc.devRef .tc main_v6) = ReadP.val_main_v6 (F := F) x1)
    (h3 : W (Proc.devRef .tc main_v3) = ReadP.val_main_v3 (F := F) x0) :
    after c5 W (Proc.devRef .tc main_v17) = ReadP.val_main_v17 (F := F) x0 x1 x2 := by
  after_results_simp
  simp only [ofBuf_toBuf]
  rw [h8, h7, h6, h3]
  rfl
theorem c5_fr_arg0 (W : Valuation τ sig (Elt F)) :
    after c5 W (Proc.devRef .tc main_arg0) = W (Proc.devRef .tc main_arg0) := by
  after_results_simp
theorem c5_fr_arg1 (W : Valuation τ sig (Elt F)) :
    after c5 W (Proc.devRef .tc main_arg1) = W (Proc.devRef .tc main_arg1) := by
  after_results_simp
theorem c5_fr_arg2 (W : Valuation τ sig (Elt F)) :
    after c5 W (Proc.devRef .tc main_arg2) = W (Proc.devRef .tc main_arg2) := by
  after_results_simp

/-! ## The whole line -/

/-- The result buffer after the whole line, from any contents: the read module's last stage at the three arguments. -/
theorem after_ops (V : Valuation τ sig (Elt F)) :
    after ops V (Proc.devRef .tc main_v17)
      = ReadP.val_main_v17 (F := F) (V (Proc.devRef .tc main_arg0)) (V (Proc.devRef .tc main_arg1)) (V (Proc.devRef .tc main_arg2)) := by
  rw [ops_eq, after_append, after_append, after_append, after_append]
  refine c5_v17 _ _ _ _ ?_ ?_ ?_ ?_
  · refine c4_v8 _ _ ?_
    rw [c3_fr_v5, c2_fr_v5]
    exact c1_v5 V
  · rw [c4_fr_v7]
    refine c3_v7 _ _ ?_
    rw [c2_fr_v4]
    exact c1_v4 V
  · rw [c4_fr_v6, c3_fr_v6]
    exact c2_v6 _ _ (c1_v4 V)
  · rw [c4_fr_v3, c3_fr_v3, c2_fr_v3]
    exact c1_v3 V

/-- No operation of the line writes the argument `main_arg0`. -/
theorem after_ops_arg0 (V : Valuation τ sig (Elt F)) :
    after ops V (Proc.devRef .tc main_arg0) = V (Proc.devRef .tc main_arg0) := by
  rw [ops_eq, after_append, after_append, after_append, after_append,
    c5_fr_arg0, c4_fr_arg0, c3_fr_arg0, c2_fr_arg0, c1_fr_arg0]
/-- No operation of the line writes the argument `main_arg1`. -/
theorem after_ops_arg1 (V : Valuation τ sig (Elt F)) :
    after ops V (Proc.devRef .tc main_arg1) = V (Proc.devRef .tc main_arg1) := by
  rw [ops_eq, after_append, after_append, after_append, after_append,
    c5_fr_arg1, c4_fr_arg1, c3_fr_arg1, c2_fr_arg1, c1_fr_arg1]
/-- No operation of the line writes the argument `main_arg2`. -/
theorem after_ops_arg2 (V : Valuation τ sig (Elt F)) :
    after ops V (Proc.devRef .tc main_arg2) = V (Proc.devRef .tc main_arg2) := by
  rw [ops_eq, after_append, after_append, after_append, after_append,
    c5_fr_arg2, c4_fr_arg2, c3_fr_arg2, c2_fr_arg2, c1_fr_arg2]

/-! ## The run -/

/-- On every device, for any float values, from any memory with zero counters: every weakly fair execution of
    @main terminates with the result buffer at the read module's last stage of the arguments' launch contents and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17) = Cert.ReferenceIdeal.ReadP.val_main_v17 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v17).trans (after_ops _),
      (h c main_arg0).trans (after_ops_arg0 _),
      (h c main_arg1).trans (after_ops_arg1 _),
      (h c main_arg2).trans (after_ops_arg2 _)⟩)
    (run_seq scopedRefs_eq scopedSems_eq defs main (fun _ => ops) main_eq (fun _ => ops_sub) m ρ)

end Cert.ReferenceIdeal.Staged

end
-- ==== Proof.RefLoss.lean ====
/-
  What the reference program computes, read off its operations one at a time.

  The reference cuts the last position off both logits arrays, so its row (b, p), p < 2047, is row (b, p) of the
  argument.  On each row it takes the maximum from −∞ (and once more against −∞, which changes nothing), subtracts
  it, exponentiates, sums from 0, takes the logarithm and subtracts again: the row's log-softmax.  The product
  exp (logsoftmax t) · (logsoftmax t − logsoftmax s) is replaced by 0 where the student's logit is infinite and is
  summed from 0 along the row: the row's KL term.  The terms are multiplied by the mask, summed from 0 over all
  2 · 2047 rows, and divided by the mask's sum: the loss of the specification, with the program's own mask and
  count as its two parameters.
-/
import proofs.«119242_j5231270166835_1_alg».proof.Proof.RefRead
import proofs.«119242_j5231270166835_1_alg».proof.Proof.RowKl
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.Loss

open Cert.ReferenceIdeal Cert.ReferenceIdeal.Gen Cert.ReferenceIdeal.ReadP Idealize.ShloMosaic Idealize.ShloMosaic.ValueIdx Distill
open scoped BigOperators

/-- A logits array at the ideal values. -/
abbrev Logits : Type := (⟨S2x2048x32000, .f32⟩ : BufTy).Contents (Elt Ideal)

/-! ## Indices -/

/-- Entry (b, p, k) of the student's slice sits at (b, p, k) of the whole array. -/
theorem idx_slice_student (b : Fin 2) (p : Fin 2047) (k : Fin 32000) :
    idx_main_v4 (ix3 b p k) = ix3 b p.castSucc k := by
  funext a; apply Fin.ext
  match a with | ⟨0, _⟩ => rfl | ⟨1, _⟩ => rfl | ⟨2, _⟩ => rfl

/-- The same for the teacher's slice. -/
theorem idx_slice_teacher (b : Fin 2) (p : Fin 2047) (k : Fin 32000) :
    idx_main_v5 (ix3 b p k) = ix3 b p.castSucc k := by
  funext a; apply Fin.ext
  match a with | ⟨0, _⟩ => rfl | ⟨1, _⟩ => rfl | ⟨2, _⟩ => rfl

/-- A value kept per row and spread over the row is read, at (b, p, k), at (b, p): the student's maximum … -/
theorem idx_spread_student_max (b : Fin 2) (p : Fin 2047) (k : Fin 32000) :
    idx_main_call1_v3 (idx_main_call1_v4 (ix3 b p k)) = ix2 b p := by
  funext a; apply Fin.ext
  match a with | ⟨0, _⟩ => rfl | ⟨1, _⟩ => rfl

/-- … the student's logarithm … -/
theorem idx_spread_student_log (b : Fin 2) (p : Fin 2047) (k : Fin 32000) :
    idx_main_call1_v8 (idx_main_call1_v10 (ix3 b p k)) = ix2 b p := by
  funext a; apply Fin.ext
  match a with | ⟨0, _⟩ => rfl | ⟨1, _⟩ => rfl

/-- … the teacher's maximum … -/
theorem idx_spread_teacher_max (b : Fin 2) (p : Fin 2047) (k : Fin 32000) :
    idx_main_call2_v3 (idx_main_call2_v4 (ix3 b p k)) = ix2 b p := by
  funext a; apply Fin.ext
  match a with | ⟨0, _⟩ => rfl | ⟨1, _⟩ => rfl

/-- … and the teacher's logarithm. -/
theorem idx_spread_teacher_log (b : Fin 2) (p : Fin 2047) (k : Fin 32000) :
    idx_main_call2_v8 (idx_main_call2_v10 (ix3 b p k)) = ix2 b p := by
  funext a; apply Fin.ext
  match a with | ⟨0, _⟩ => rfl | ⟨1, _⟩ => rfl

/-- Term k of a sum along row (b, p) is entry (b, p, k): the student's sum of exponentials … -/
theorem idx_along_student (b : Fin 2) (p : Fin 2047) (k : Fin 32000) :
    idx_main_call1_v7 (ix2 b p) k = ix3 b p k := by
  funext a; apply Fin.ext
  match a with | ⟨0, _⟩ => rfl | ⟨1, _⟩ => rfl | ⟨2, _⟩ => rfl

/-- … the teacher's … -/
theorem idx_along_teacher (b : Fin 2) (p : Fin 2047) (k : Fin 32000) :
    idx_main_call2_v7 (ix2 b p) k = ix3 b p k := by
  funext a; apply Fin.ext
  match a with | ⟨0, _⟩ => rfl | ⟨1, _⟩ => rfl | ⟨2, _⟩ => rfl

/-- … and the row's sum of KL terms. -/
theorem idx_along_terms (b : Fin 2) (p : Fin 2047) (k : Fin 32000) :
    idx_main_v13 (ix2 b p) k = ix3 b p k := by
  funext a; apply Fin.ext
  match a with | ⟨0, _⟩ => rfl | ⟨1, _⟩ => rfl | ⟨2, _⟩ => rfl

/-! ## The two words -/

/-- The word 0xFF800000 is −∞, the least extended real. -/
theorem negInf_word : Ideal.ofBits .f32 0xFF800000#32 = (⊥ : EReal) := by simp [Ideal.ofBits, Ideal.ieee]

/-! ## A row's maximum -/

/-- The sliced shape loses its last axis to a reduce along it. -/
theorem reduces_last : S2x2047x32000.Reduces [2] S2x2047 := by decide

/-- Row index (b, p) with k put back on the last axis is (b, p, k). -/
theorem lift_row (b : Fin 2) (p : Fin 2047) (k : Fin (S2x2047x32000.size 2)) :
    reduces_last.lift (ix2 b p) k = ix3 b p (⟨k.val, k.isLt⟩ : Fin 32000) := by
  funext c; apply Fin.ext
  match c with | ⟨0, _⟩ => rfl | ⟨1, _⟩ => rfl | ⟨2, _⟩ => rfl

/-- The host's reduce with a maximum body from the word −∞, along the last axis, is at (b, p) the maximum of
    row (b, p) taken from −∞. -/
theorem reduceMax_row (y : FVec Ideal S2x2047x32000 .f32) (c : FVec Ideal S_ .f32)
    (hc : c (Shape.Idx.first h_S_) = Ideal.ofBits .f32 0xFF800000#32) (b : Fin 2) (p : Fin 2047) :
    Host.reduce FloatOps.maximumf y c reducesTo_S2x2047x32000_S2x2047_d2 h_S_ (ix2 b p)
      = rowMax (fun k : Fin 32000 => y (ix3 b p k)) := by
  rw [Host.reduce_eq_fold_single FloatOps.maximumf y c reducesTo_S2x2047x32000_S2x2047_d2 reduces_last h_S_, hc, negInf_word]
  have hf : (y ∘ reduces_last.lift (ix2 b p)) = fun k : Fin 32000 => y (ix3 b p k) :=
    funext fun k => congrArg y (lift_row b p k)
  unfold rowMax
  exact congrArg (fun f => Finset.fold max (⊥ : EReal) f (Finset.univ : Finset (Fin 32000))) hf

/-! ## The student's log-softmax -/

/-- Entry (b, p, k) of the student's slice is entry k of row (b, p) of the logits. -/
theorem student_slice (x1 : Logits) (b : Fin 2) (p : Fin 2047) (k : Fin 32000) :
    val_main_v4 (F := Ideal) x1 (ix3 b p k) = row x1 b p.castSucc k := by
  rw [val_main_v4_apply, idx_slice_student]; rfl

/-- The row's maximum, taken once more against −∞. -/
theorem student_max (x1 : Logits) (b : Fin 2) (p : Fin 2047) :
    val_main_call1_v2 (F := Ideal) x1 (ix2 b p) = rowMax (row x1 b p.castSucc) := by
  have hred : val_main_call1_v0 (F := Ideal) x1 (ix2 b p) = rowMax (row x1 b p.castSucc) := by
    unfold val_main_call1_v0
    refine (reduceMax_row (val_main_v4 (F := Ideal) x1) (val_main_call1_cst (F := Ideal)) (val_main_call1_cst_apply _) b p).trans ?_
    exact congrArg rowMax (funext fun k => student_slice x1 b p k)
  rw [val_main_call1_v2_apply, val_main_call1_v1_apply, val_main_call1_cst_0_apply, hred, Ideal.ofBits_def,
    Ideal.maximumf_def, negInf_word]
  exact max_bot_left _

/-- The maximum spread back over the row. -/
theorem student_max_spread (x1 : Logits) (b : Fin 2) (p : Fin 2047) (k : Fin 32000) :
    val_main_call1_v4 (F := Ideal) x1 (ix3 b p k) = rowMax (row x1 b p.castSucc) := by
  rw [val_main_call1_v4_apply, val_main_call1_v3_apply, idx_spread_student_max, student_max]

/-- The shifted entry. -/
theorem student_shifted (x1 : Logits) (b : Fin 2) (p : Fin 2047) (k : Fin 32000) :
    val_main_call1_v5 (F := Ideal) x1 (ix3 b p k) = shifted (row x1 b p.castSucc) k := by
  rw [val_main_call1_v5_apply, Ideal.subf_def, student_slice, student_max_spread]; rfl

/-- The sum of the exponentials of the shifted entries. -/
theorem student_sumExp (x1 : Logits) (b : Fin 2) (p : Fin 2047) :
    val_main_call1_v7 (F := Ideal) x1 (ix2 b p) = sumExp (row x1 b p.castSucc) := by
  rw [val_main_call1_v7_apply, val_main_call1_cst_1_apply, Ideal.ofBits_def, Ideal.ofBits_zero_f32, zero_add]
  unfold sumExp
  exact Finset.sum_congr rfl fun k _ => by
    rw [idx_along_student, val_main_call1_v6_apply, Ideal.hostUnary_exp_def, student_shifted]

/-- Its logarithm spread back over the row. -/
theorem student_log_spread (x1 : Logits) (b : Fin 2) (p : Fin 2047) (k : Fin 32000) :
    val_main_call1_v10 (F := Ideal) x1 (ix3 b p k) = Ideal.log (sumExp (row x1 b p.castSucc)) := by
  rw [val_main_call1_v10_apply, val_main_call1_v9_apply, Ideal.hostUnary_log_def, val_main_call1_v8_apply,
    idx_spread_student_log, student_sumExp]

/-- The student's log-softmax at (b, p, k). -/
theorem student_logSoftmax (x1 : Logits) (b : Fin 2) (p : Fin 2047) (k : Fin 32000) :
    val_main_v7 (F := Ideal) x1 (ix3 b p k) = logSoftmax (row x1 b p.castSucc) k := by
  rw [val_main_v7_apply, Ideal.subf_def, student_shifted, student_log_spread]; rfl

/-! ## The teacher's log-softmax: the same operations on the other array -/

theorem teacher_slice (x2 : Logits) (b : Fin 2) (p : Fin 2047) (k : Fin 32000) :
    val_main_v5 (F := Ideal) x2 (ix3 b p k) = row x2 b p.castSucc k := by
  rw [val_main_v5_apply, idx_slice_teacher]; rfl

theorem teacher_max (x2 : Logits) (b : Fin 2) (p : Fin 2047) :
    val_main_call2_v2 (F := Ideal) x2 (ix2 b p) = rowMax (row x2 b p.castSucc) := by
  have hred : val_main_call2_v0 (F := Ideal) x2 (ix2 b p) = rowMax (row x2 b p.castSucc) := by
    unfold val_main_call2_v0
    refine (reduceMax_row (val_main_v5 (F := Ideal) x2) (val_main_call2_cst (F := Ideal)) (val_main_call2_cst_apply _) b p).trans ?_
    exact congrArg rowMax (funext fun k => teacher_slice x2 b p k)
  rw [val_main_call2_v2_apply, val_main_call2_v1_apply, val_main_call2_cst_0_apply, hred, Ideal.ofBits_def,
    Ideal.maximumf_def, negInf_word]
  exact max_bot_left _

theorem teacher_max_spread (x2 : Logits) (b : Fin 2) (p : Fin 2047) (k : Fin 32000) :
    val_main_call2_v4 (F := Ideal) x2 (ix3 b p k) = rowMax (row x2 b p.castSucc) := by
  rw [val_main_call2_v4_apply, val_main_call2_v3_apply, idx_spread_teacher_max, teacher_max]

theorem teacher_shifted (x2 : Logits) (b : Fin 2) (p : Fin 2047) (k : Fin 32000) :
    val_main_call2_v5 (F := Ideal) x2 (ix3 b p k) = shifted (row x2 b p.castSucc) k := by
  rw [val_main_call2_v5_apply, Ideal.subf_def, teacher_slice, teacher_max_spread]; rfl

theorem teacher_sumExp (x2 : Logits) (b : Fin 2) (p : Fin 2047) :
    val_main_call2_v7 (F := Ideal) x2 (ix2 b p) = sumExp (row x2 b p.castSucc) := by
  rw [val_main_call2_v7_apply, val_main_call2_cst_1_apply, Ideal.ofBits_def, Ideal.ofBits_zero_f32, zero_add]
  unfold sumExp
  exact Finset.sum_congr rfl fun k _ => by
    rw [idx_along_teacher, val_main_call2_v6_apply, Ideal.hostUnary_exp_def, teacher_shifted]

theorem teacher_log_spread (x2 : Logits) (b : Fin 2) (p : Fin 2047) (k : Fin 32000) :
    val_main_call2_v10 (F := Ideal) x2 (ix3 b p k) = Ideal.log (sumExp (row x2 b p.castSucc)) := by
  rw [val_main_call2_v10_apply, val_main_call2_v9_apply, Ideal.hostUnary_log_def, val_main_call2_v8_apply,
    idx_spread_teacher_log, teacher_sumExp]

theorem teacher_logSoftmax (x2 : Logits) (b : Fin 2) (p : Fin 2047) (k : Fin 32000) :
    val_main_v8 (F := Ideal) x2 (ix3 b p k) = logSoftmax (row x2 b p.castSucc) k := by
  rw [val_main_v8_apply, Ideal.subf_def, teacher_shifted, teacher_log_spread]; rfl

/-! ## A row's KL term -/

/-- The test |student logit| = +∞ at (b, p, k). -/
theorem student_infBit (x1 : Logits) (b : Fin 2) (p : Fin 2047) (k : Fin 32000) :
    val_main_v6 (F := Ideal) x1 (ix3 b p k) = infBit (row x1 b p.castSucc k) := by
  rw [val_main_v6_apply, val_main_call0_v0_apply, val_main_call0_v1_apply, val_main_call0_cst_apply, student_slice,
    Ideal.cmpf_def, Ideal.hostAbsf_def, Ideal.absf_def, Ideal.ofBits_def]
  rfl

/-- The value put where the test holds is 0. -/
theorem where_zero (i : S2x2047x32000.Idx) : val_main_call3_v1 (F := Ideal) i = 0 := by
  rw [val_main_call3_v1_apply, val_main_call3_v0_apply, val_main_cst_apply, Ideal.ofBits_def, Ideal.ofBits_zero_f32]

/-- Term k of row (b, p). -/
theorem term (x1 x2 : Logits) (b : Fin 2) (p : Fin 2047) (k : Fin 32000) :
    val_main_v12 (F := Ideal) x1 x2 (ix3 b p k)
      = Scalar.select (infBit (row x1 b p.castSucc k)) (0 : EReal)
          (Ideal.exp (logSoftmax (row x2 b p.castSucc) k)
            * (logSoftmax (row x2 b p.castSucc) k - logSoftmax (row x1 b p.castSucc) k)) := by
  rw [val_main_v12_apply, student_infBit, where_zero, val_main_v11_apply, Ideal.mulf_def, val_main_v9_apply,
    Ideal.hostUnary_exp_def, val_main_v10_apply, Ideal.subf_def, teacher_logSoftmax, student_logSoftmax]

/-- The row's sum of terms is the row's KL term. -/
theorem rowTerm_at (x1 x2 : Logits) (b : Fin 2) (p : Fin 2047) :
    val_main_v13 (F := Ideal) x1 x2 (ix2 b p) = klExp (row x1 b p.castSucc) (row x2 b p.castSucc) := by
  rw [val_main_v13_apply, val_main_cst_0_apply, Ideal.ofBits_def, Ideal.ofBits_zero_f32, zero_add]
  unfold klExp
  exact Finset.sum_congr rfl fun k _ => by rw [idx_along_terms, term]

/-- The same at an index not yet split into its coordinates. -/
theorem rowTerm (x1 x2 : Logits) (i : S2x2047.Idx) :
    val_main_v13 (F := Ideal) x1 x2 i
      = klExp (row x1 (i 0) (i 1).castSucc) (row x2 (i 0) (i 1).castSucc) := by
  obtain ⟨b, p, rfl⟩ : ∃ (b : Fin 2) (p : Fin 2047), i = ix2 b p := ⟨i 0, i 1, eq_ix2 i⟩
  exact rowTerm_at x1 x2 b p

/-! ## The loss -/

/-- The reference's result is the specification's loss of the two logits arrays, with the reference's own mask
    and its own count. -/
theorem ref_loss (x0 : (⟨S2x2048, .i32⟩ : BufTy).Contents (Elt Ideal)) (x1 x2 : (⟨S2x2048x32000, .f32⟩ : BufTy).Contents (Elt Ideal)) :
    ReadP.val_main_v17 (F := Ideal) x0 x1 x2 ix0
      = Distill.lossSliced (ReadP.val_main_v3 (F := Ideal) x0) (ReadP.val_main_v16 (F := Ideal) x0 ix0) x1 x2 := by
  rw [val_main_v17_apply, Ideal.hostDivf_def, val_main_v15_apply, val_main_cst_1_apply, Ideal.ofBits_def,
    Ideal.ofBits_zero_f32, zero_add]
  unfold lossSliced
  refine congrArg (fun s => Ideal.div s (val_main_v16 (F := Ideal) x0 ix0)) ?_
  exact Finset.sum_congr rfl fun i _ => by rw [val_main_v14_apply, Ideal.mulf_def, rowTerm]

end Cert.ReferenceIdeal.Loss

end
-- ==== Proof.lean ====
/-
  The certificate of the masked forward-KL distillation loss: the kernel against its jnp reference, over the
  extended reals, for finite logits.

  Both programs compute, from the labels g (int32 [2, 2048]), the student logits X and the teacher logits T
  (f32 [2, 2048, 32000]),
        Σ_{b, p < 2047} KL(b, p) · [g[b, p + 1] ≠ −100]  /  Σ_{b, p < 2047} [g[b, p + 1] ≠ −100],
  where KL(b, p) = Σ_v [X[b,p,v] infinite ? 0 : P_v · (logsoftmax T[b,p,·]_v − logsoftmax X[b,p,·]_v)] and P is
  the teacher's softmax.  The reference slices the last position off and spells P as exp (logsoftmax T).  The kernel
  keeps all 2048 positions, with a mask column that is zero at the last one, walks each batch row in 128 groups of 16
  positions accumulating one partial sum per group into a one-element block (reset at the first group, written back
  after the last), spells P as exp (T − max) / Σ exp (T − max), and leaves the sum over the two batch rows and the
  division to the host.

  The two agree because (1) for a row of REAL teacher logits  exp (a − log Σ) = exp a / Σ  with Σ a positive real:
  this is where the precondition is used, and only for the teacher; (2) a row term times the zero at the last
  position is zero; (3) sums of extended reals may be regrouped.

  The kernel's frame is the generated one; its value is read off that frame: the two case values of the body, the
  induction over the grid points, the one written-back block per batch row, the host operations after the call.
  The reference's run is stated over the read module's stages and proved stretch by stretch; the read module's
  index-by-index lemmas give its value as the sliced loss.  `preserves` is `True`: the idealization rewrote nothing.
-/
import proofs.«119242_j5231270166835_1_alg».proof.Defs
import proofs.«119242_j5231270166835_1_alg».proof.Proof.Gen.Kernel
import proofs.«119242_j5231270166835_1_alg».proof.Proof.Gen.Kernel.Skeleton
import proofs.«119242_j5231270166835_1_alg».proof.Proof.Gen.Kernel.Launch
import proofs.«119242_j5231270166835_1_alg».proof.Proof.Gen.Kernel.Points
import proofs.«119242_j5231270166835_1_alg».proof.Proof.Gen.Kernel.Frame
import proofs.«119242_j5231270166835_1_alg».proof.Proof.Gen.KernelIdeal
import proofs.«119242_j5231270166835_1_alg».proof.Proof.Gen.KernelIdeal.Skeleton
import proofs.«119242_j5231270166835_1_alg».proof.Proof.Gen.KernelIdeal.Launch
import proofs.«119242_j5231270166835_1_alg».proof.Proof.Gen.KernelIdeal.Points
import proofs.«119242_j5231270166835_1_alg».proof.Proof.Gen.KernelIdeal.Frame
import proofs.«119242_j5231270166835_1_alg».proof.Proof.Gen.ReferenceIdeal
import proofs.«119242_j5231270166835_1_alg».proof.Proof.Gen.Pre_finite_inputs
import proofs.«119242_j5231270166835_1_alg».proof.Proof.KernelFinal
import proofs.«119242_j5231270166835_1_alg».proof.Proof.FiniteTeacher
import proofs.«119242_j5231270166835_1_alg».proof.Proof.RefRun
import proofs.«119242_j5231270166835_1_alg».proof.Proof.RefLoss
import Idealize.ShloMosaic.Adequacy
import Idealize.ShloMosaic.Init

set_option maxRecDepth 16384

noncomputable section

namespace Cert.Proof

open Idealize.ShloMosaic Idealize.ShloMosaic.ValueIdx Idealize.SL.Sem

/-- The short mask the kernel program forms is the reference's. -/
theorem mask_same (g : IVec Cert.KernelIdeal.S2x2048 32) :
    Cert.KernelIdeal.Mask.maskShort g = Cert.ReferenceIdeal.ReadP.val_main_v3 (F := Ideal) g := rfl

/-- The count the kernel program divides by is the reference's. -/
theorem count_same (g : IVec Cert.KernelIdeal.S2x2048 32) :
    Cert.KernelIdeal.Mask.count g = Cert.ReferenceIdeal.ReadP.val_main_v16 (F := Ideal) g := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Staged.run (F := Ideal) m ρ)

theorem preserves : Cert.preserves_Kernel_KernelIdeal := trivial

/-- Both programs end with the same loss: the kernel's grouped walk with the full-length mask, the reference's sliced
    walk with the short one; the teacher logits are real by the precondition. -/
theorem algebraic : Cert.algebraic_KernelIdeal_ReferenceIdeal := by
  intro m ρ m' ρ' hpre hagree
  refine ⟨fun c => fun _ => Distill.lossGrouped (Cert.KernelIdeal.Blocks.maskFull m c)
      (Cert.KernelIdeal.Mask.count (Cert.KernelIdeal.Mask.labels m c) ix0) (Cert.KernelIdeal.Blocks.student m c)
      (Cert.KernelIdeal.Blocks.teacher m c), Cert.KernelIdeal.Final.run m ρ, ?_⟩
  refine (θ_run Cert.ReferenceIdeal.defs _ _).mono (fun _ h c => ⟨(h c).1.trans ?_, (h c).2⟩)
    (Cert.ReferenceIdeal.Staged.run (F := Ideal) m' ρ')
  rw [(hagree c).1, (hagree c).2.1, (hagree c).2.2]
  funext j0
  obtain rfl : j0 = ix0 := eq_ix0 j0
  rw [Cert.ReferenceIdeal.Loss.ref_loss, ← mask_same, ← count_same]
  beta_reduce
  have hs : Cert.KernelIdeal.Blocks.student m c = m ((c.tc : Thread Cert.KernelIdeal.nD Cert.KernelIdeal.τ).loc Cert.KernelIdeal.main_arg1) :=
    Cert.KernelIdeal.Gen.V_main_arg1 m c
  have ht : Cert.KernelIdeal.Blocks.teacher m c = m ((c.tc : Thread Cert.KernelIdeal.nD Cert.KernelIdeal.τ).loc Cert.KernelIdeal.main_arg2) :=
    Cert.KernelIdeal.Gen.V_main_arg2 m c
  rw [hs, ht]
  exact (Distill.lossGrouped_eq_lossSliced (Cert.KernelIdeal.Blocks.maskFull m c)
    (Cert.KernelIdeal.Mask.maskShort (Cert.KernelIdeal.Mask.labels m c))
    (Cert.KernelIdeal.Mask.count (Cert.KernelIdeal.Mask.labels m c) ix0) _ _
    (fun b p => Cert.KernelIdeal.Mask.maskFull_short m c b p) (fun b => Cert.KernelIdeal.Mask.maskFull_last m c b)
    (fun i => Distill.teacher_real _ _ _ (hpre c) i)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
